-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S500000x64 : Shape := ⟨2, ![500000, 64]⟩
abbrev S320x256 : Shape := ⟨2, ![320, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000x64 : S_.BroadcastsInDim S500000x64 (![] : Fin 0 → Fin S500000x64.rank)
  reducesTo_S500000x64_S_d0_1 : S500000x64.ReducesTo [0, 1] S_
  bcast_S_S320x256 : S_.BroadcastsInDim S320x256 (![] : Fin 0 → Fin S320x256.rank)
  reducesTo_S320x256_S_d0_1 : S320x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S2x500000 : S_.BroadcastsInDim S2x500000 (![] : Fin 0 → Fin S2x500000.rank)
  reducesTo_S2x500000_S_d0_1 : S2x500000.ReducesTo [0, 1] S_

variable [Facts]

def fn_part2 {F : FTy → Type} [FloatOps F] (main_arg1 : IVec S2x500000 32) (main_v32 : IVec S_ 1) (main_c_12 : IVec S_ 32) : IVec S_ 1 :=
  let main_v33 : IVec S2x500000 32 := broadcastInDim S2x500000 ![] bcast_S_S2x500000 main_c_12
  let main_v34 : IVec S2x500000 1 := cmpi .slt main_arg1 main_v33
  let main_c_13 : IVec S_ 1 := constantI S_ 1 1#1
  let main_v35 : IVec S_ 1 := (fun x v => Host.reduce IntOp.andi x v reducesTo_S2x500000_S_d0_1 h_S_) main_v34 main_c_13
  let main_v36 : IVec S_ 1 := andi main_v32 main_v35
  main_v36

def fn_part1 {F : FTy → Type} [FloatOps F] (main_arg1 : IVec S2x500000 32) (main_arg5 : FVec F S256x64 .f32) (main_arg6 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg5
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_c_10 : IVec S_ 32 := constantI S_ 32 4294917296#32
  let main_v29 : IVec S2x500000 32 := broadcastInDim S2x500000 ![] bcast_S_S2x500000 main_c_10
  let main_v30 : IVec S2x500000 1 := cmpi .sge main_arg1 main_v29
  let main_c_11 : IVec S_ 1 := constantI S_ 1 1#1
  let main_v31 : IVec S_ 1 := (fun x v => Host.reduce IntOp.andi x v reducesTo_S2x500000_S_d0_1 h_S_) main_v30 main_c_11
  let main_v32 : IVec S_ 1 := andi main_v28 main_v31
  let main_c_12 : IVec S_ 32 := constantI S_ 32 50000#32
  fn_part2 (F := F) main_arg1 main_v32 main_c_12

def fn {F : FTy → Type} [FloatOps F] (main_arg0 : FVec F S50000x128 .f32) (main_arg1 : IVec S2x500000 32) (main_arg2 : FVec F S500000x64 .f32) (main_arg3 : FVec F S320x256 .f32) (main_arg4 : FVec F S256 .f32) (main_arg5 : FVec F S256x64 .f32) (main_arg6 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000x64 .f32 := Host.absf main_arg2
  let main_cst_0 : FVec F S_ .f32 := constant S_ .f32 0x7F800000#32
  let main_v5 : FVec F S500000x64 .f32 := broadcastInDim S500000x64 ![] bcast_S_S500000x64 main_cst_0
  let main_v6 : IVec S500000x64 1 := cmpf .olt main_v4 main_v5
  let main_c_1 : IVec S_ 1 := constantI S_ 1 1#1
  let main_v7 : IVec S_ 1 := (fun x v => Host.reduce IntOp.andi x v reducesTo_S500000x64_S_d0_1 h_S_) main_v6 main_c_1
  let main_v8 : IVec S_ 1 := andi main_v3 main_v7
  let main_v9 : FVec F S320x256 .f32 := Host.absf main_arg3
  let main_cst_2 : FVec F S_ .f32 := constant S_ .f32 0x7F800000#32
  let main_v10 : FVec F S320x256 .f32 := broadcastInDim S320x256 ![] bcast_S_S320x256 main_cst_2
  let main_v11 : IVec S320x256 1 := cmpf .olt main_v9 main_v10
  let main_c_3 : IVec S_ 1 := constantI S_ 1 1#1
  let main_v12 : IVec S_ 1 := (fun x v => Host.reduce IntOp.andi x v reducesTo_S320x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_v13 main_v16
-- ==== Kernel.lean ====
abbrev S50000x128 : Shape := ⟨2, ![50000, 128]⟩
abbrev S2x500000 : Shape := ⟨2, ![2, 500000]⟩
abbrev S500000x64 : Shape := ⟨2, ![500000, 64]⟩
abbrev S320x256 : Shape := ⟨2, ![320, 256]⟩
abbrev S256 : Shape := ⟨1, ![256]⟩
abbrev S256x64 : Shape := ⟨2, ![256, 64]⟩
abbrev S64 : Shape := ⟨1, ![64]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S1 : Shape := ⟨1, ![1]⟩
abbrev S1x1 : Shape := ⟨2, ![1, 1]⟩
abbrev S500000x128 : Shape := ⟨2, ![500000, 128]⟩
abbrev S4000x128 : Shape := ⟨2, ![4000, 128]⟩
abbrev S4000x64 : Shape := ⟨2, ![4000, 64]⟩
abbrev S4000x320 : Shape := ⟨2, ![4000, 320]⟩
abbrev S4000x256 : Shape := ⟨2, ![4000, 256]⟩
abbrev S1x256 : Shape := ⟨2, ![1, 256]⟩
abbrev S1x64 : Shape := ⟨2, ![1, 64]⟩

abbrev nBuf : Space → Nat
  | .hbm => 58
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S500000x64, .f32⟩
  | .hbm, ⟨3, _⟩ => ⟨S320x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S1x500000, .i32⟩
  | .hbm, ⟨8, _⟩ => ⟨S500000, .i32⟩
  | .hbm, ⟨9, _⟩ => ⟨S1x500000, .i32⟩
  | .hbm, ⟨10, _⟩ => ⟨S500000, .i32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S1, .i32⟩
  | .hbm, ⟨20, _⟩ => ⟨S_, .i32⟩
  | .hbm, ⟨21, _⟩ => ⟨S500000x1, .i32⟩
  | .hbm, ⟨22, _⟩ => ⟨S500000x1, .i1⟩
  | .hbm, ⟨23, _⟩ => ⟨S1x1, .i32⟩
  | .hbm, ⟨24, _⟩ => ⟨S500000x1, .i32⟩
  | .hbm, ⟨25, _⟩ => ⟨S500000x1, .i1⟩
  | .hbm, ⟨26, _⟩ => ⟨S500000x1, .i1⟩
  | .hbm, ⟨27, _⟩ => ⟨S_, .i1⟩
  | .hbm, ⟨28, _⟩ => ⟨S500000, .i1⟩
  | .hbm, ⟨29, _⟩ => ⟨S500000x128, .f32⟩
  | .hbm, ⟨30, _⟩ => ⟨S500000x128, .i1⟩
  | .hbm, ⟨31, _⟩ => ⟨S_, .f32⟩
  | .hbm, ⟨32, _⟩ => ⟨S500000x128, .f32⟩
  | .hbm, ⟨33, _⟩ => ⟨S500000x128, .f32⟩
  | .hbm, ⟨34, _⟩ => ⟨S_, .i32⟩
  | .hbm, ⟨35, _⟩ => ⟨S500000, .i32⟩
  | .hbm, ⟨36, _⟩ => ⟨S500000, .i1⟩
  | .hbm, ⟨37, _⟩ => ⟨S_, .i32⟩
  | .hbm, ⟨38, _⟩ => ⟨S500000, .i32⟩
  | .hbm, ⟨39, _⟩ => ⟨S500000, .i32⟩
  | .hbm, ⟨40, _⟩ => ⟨S500000, .i32⟩
  | .hbm, ⟨41, _⟩ => ⟨S500000x1, .i32⟩
  | .hbm, ⟨42, _⟩ => ⟨S1, .i32⟩
  | .hbm, ⟨43, _⟩ => ⟨S_, .i32⟩
  | .hbm, ⟨44, _⟩ => ⟨S500000x1, .i32⟩
  | .hbm, ⟨45, _⟩ => ⟨S500000x1, .i1⟩
  | .hbm, ⟨46, _⟩ => ⟨S1x1, .i32⟩
  | .hbm, ⟨47, _⟩ => ⟨S500000x1, .i32⟩
  | .hbm, ⟨48, _⟩ => ⟨S500000x1, .i1⟩
  | .hbm, ⟨49, _⟩ => ⟨S500000x1, .i1⟩
  | .hbm, ⟨50, _⟩ => ⟨S_, .i1⟩
  | .hbm, ⟨51, _⟩ => ⟨S500000, .i1⟩
  | .hbm, ⟨52, _⟩ => ⟨S500000x128, .f32⟩
  | .hbm, ⟨53, _⟩ => ⟨S500000x128, .i1⟩
  | .hbm, ⟨54, _⟩ => ⟨S_, .f32⟩
  | .hbm, ⟨55, _⟩ => ⟨S500000x128, .f32⟩
  | .hbm, ⟨56, _⟩ => ⟨S500000x128, .f32⟩
  | .hbm, ⟨57, _⟩ => ⟨S500000x64, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x64, .f32⟩
  | .local _ .vmem, ⟨5, _⟩ => ⟨S4000x64, .f32⟩
  | .local _ .vmem, ⟨6, _⟩ => ⟨S320x256, .f32⟩
  | .local _ .vmem, ⟨7, _⟩ => ⟨S256, .f32⟩
  | .local _ .vmem, ⟨8, _⟩ => ⟨S256x64, .f32⟩
  | .local _ .vmem, ⟨9, _⟩ => ⟨S64, .f32⟩
  | .local _ .vmem, ⟨10, _⟩ => ⟨S4000x64, .f32⟩
  | .local _ .vmem, ⟨11, _⟩ => ⟨S4000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v4 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v5 : Ref sig .tc := ⟨.hbm, 56, rfl⟩
abbrev main_v6 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S320x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x64_S4000x64_0_0 : ∀ a, (![0, 0] : Fin 2 → Nat) a + S4000x64.size a ≤ S4000x64.size a
  h_S4000x64 : 0 < S4000x64.numel
  concatenates_S4000x128_S4000x128_S4000x64_S4000x320_d1 : Shape.Concatenates [S4000x128, S4000x128, S4000x64] S4000x320 1
  bitsLt_bf16_f32 : FTy.bits .bf16 < FTy.bits .f32
  inb_S320x256_S320x256_0_0 : ∀ a, (![0, 0] : Fin 2 → Nat) a + S320x256.size a ≤ S320x256.size a
  h_S320x256 : 0 < S320x256.numel
  inb_S256_S256_0 : ∀ a, (![0] : Fin 1 → Nat) a + S256.size a ≤ S256.size a
  h_S256 : 0 < S256.numel
  shapeCasts_S256_S1x256 : S256.ShapeCasts S1x256
  broadcasts_S1x256_S4000x256 : S1x256.Broadcasts S4000x256
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  gather_S50000x128_S500000x1_S500000x128_1_0_n_n_0_1_1128_wf : GatherDims.WF S50000x128 S500000x1 S500000x128 [1] [0] [] [0] [] 1 ![1, 128]
  dot_S4000x320_S320x256_S4000x256_1_0_0_1_n_n_wf : DotDims.WF S4000x320 S320x256 S4000x256 [1] [0] [0] [1] [] []
  dot_S4000x256_S256x64_S4000x64_1_0_0_1_n_n_wf : DotDims.WF S4000x256 S256x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S500000x128.size a
  hwx0_0 : ∀ i : grid0.Coords, EltTy.bits .f32 = 32 ∨ (Rect.block (s := S500000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S500000x128.size a
  hwx0_1 : ∀ i : grid0.Coords, EltTy.bits .f32 = 32 ∨ (Rect.block (s := S500000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S500000x64.size a
  hwx0_2 : ∀ i : grid0.Coords, EltTy.bits .f32 = 32 ∨ (Rect.block (s := S500000x64) S4000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S320x256.size a ≤ S320x256.size a
  hwx0_3 : ∀ i : grid0.Coords, EltTy.bits .f32 = 32 ∨ (Rect.block (s := S320x256) S320x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .f32 = 32 ∨ (Rect.block (s := S256x64) S256x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x64.size a ≤ S500000x64.size a
  hwx0_7 : ∀ i : grid0.Coords, EltTy.bits .f32 = 32 ∨ (Rect.block (s := S500000x64) S4000x64.size (cc0_transform_7 i) (hinb0_7 i)).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S4000x320_S320x256_S4000x256_1_0_0_1_n_n : DotDims S4000x320 S320x256 S4000x256 where
  lhsContracting := [1]
  rhsContracting := [0]
  lhsNonContracting := [0]
  rhsNonContracting := [1]
  lhsBatch := []
  rhsBatch := []
  wf := dot_S4000x320_S320x256_S4000x256_1_0_0_1_n_n_wf
def dot_S4000x256_S256x64_S4000x64_1_0_0_1_n_n : DotDims S4000x256 S256x64 S4000x64 where
  lhsContracting := [1]
  rhsContracting := [0]
  lhsNonContracting := [0]
  rhsNonContracting := [1]
  lhsBatch := []
  rhsBatch := []
  wf := dot_S4000x256_S256x64_S4000x64_1_0_0_1_n_n_wf

abbrev win0_0 : Pipeline.Window sig grid0 :=
  Pipeline.Window.ofSpec (Memref.whole main_v4) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S320x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S4000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S500000x64 : Shape := ⟨2, ![500000, 64]⟩
abbrev S320x256 : Shape := ⟨2, ![320, 256]⟩
abbrev S256 : Shape := ⟨1, ![256]⟩
abbrev S256x64 : Shape := ⟨2, ![256, 64]⟩
abbrev S64 : Shape := ⟨1, ![64]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S500000x320 : Shape := ⟨2, ![500000, 320]⟩
abbrev S500000x256 : Shape := ⟨2, ![500000, 256]⟩
abbrev S1x256 : Shape := ⟨2, ![1, 256]⟩
abbrev S1x64 : Shape := ⟨2, ![1, 64]⟩

abbrev nBuf : Space → Nat
  | .hbm => 41
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S500000x64, .f32⟩
  | .hbm, ⟨3, _⟩ => ⟨S320x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S1x500000, .i32⟩
  | .hbm, ⟨8, _⟩ => ⟨S500000, .i32⟩
  | .hbm, ⟨9, _⟩ => ⟨S1x500000, .i32⟩
  | .hbm, ⟨10, _⟩ => ⟨S500000, .i32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S500000x128, .f32⟩
  | .hbm, ⟨20, _⟩ => ⟨S_, .i32⟩
  | .hbm, ⟨21, _⟩ => ⟨S500000, .i32⟩
  | .hbm, ⟨22, _⟩ => ⟨S500000, .i1⟩
  | .hbm, ⟨23, _⟩ => ⟨S_, .i32⟩
  | .hbm, ⟨24, _⟩ => ⟨S500000, .i32⟩
  | .hbm, ⟨25, _⟩ => ⟨S500000, .i32⟩
  | .hbm, ⟨26, _⟩ => ⟨S500000, .i32⟩
  | .hbm, ⟨27, _⟩ => ⟨S500000x1, .i32⟩
  | .hbm, ⟨28, _⟩ => ⟨S500000x128, .f32⟩
  | .hbm, ⟨29, _⟩ => ⟨S500000x320, .f32⟩
  | .hbm, ⟨30, _⟩ => ⟨S500000x256, .f32⟩
  | .hbm, ⟨31, _⟩ => ⟨S1x256, .f32⟩
  | .hbm, ⟨32, _⟩ => ⟨S500000x256, .f32⟩
  | .hbm, ⟨33, _⟩ => ⟨S500000x256, .f32⟩
  | .hbm, ⟨34, _⟩ => ⟨S_, .f32⟩
  | .hbm, ⟨35, _⟩ => ⟨S500000x256, .f32⟩
  | .hbm, ⟨36, _⟩ => ⟨S500000x256, .f32⟩
  | .hbm, ⟨37, _⟩ => ⟨S500000x64, .f32⟩
  | .hbm, ⟨38, _⟩ => ⟨S1x64, .f32⟩
  | .hbm, ⟨39, _⟩ => ⟨S500000x64, .f32⟩
  | .hbm, ⟨40, _⟩ => ⟨S500000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x64_S500000x320_d1 : Shape.Concatenates [S500000x128, S500000x128, S500000x64] S500000x320 1
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  gather_S50000x128_S500000x1_S500000x128_1_0_n_n_0_1_1128_wf : GatherDims.WF S50000x128 S500000x1 S500000x128 [1] [0] [] [0] [] 1 ![1, 128]
  dot_S500000x320_S320x256_S500000x256_1_0_0_1_n_n_wf : DotDims.WF S500000x320 S320x256 S500000x256 [1] [0] [0] [1] [] []
  dot_S500000x256_S256x64_S500000x64_1_0_0_1_n_n_wf : DotDims.WF S500000x256 S256x64 S500000x64 [1] [0] [0] [1] [] []

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x320_S320x256_S500000x256_1_0_0_1_n_n : DotDims S500000x320 S320x256 S500000x256 where
  lhsContracting := [1]
  rhsContracting := [0]
  lhsNonContracting := [0]
  rhsNonContracting := [1]
  lhsBatch := []
  rhsBatch := []
  wf := dot_S500000x320_S320x256_S500000x256_1_0_0_1_n_n_wf
def dot_S500000x256_S256x64_S500000x64_1_0_0_1_n_n : DotDims S500000x256 S256x64 S500000x64 where
  lhsContracting := [1]
  rhsContracting := [0]
  lhsNonContracting := [0]
  rhsNonContracting := [1]
  lhsBatch := []
  rhsBatch := []
  wf := dot_S500000x256_S256x64_S500000x64_1_0_0_1_n_n_wf

class Facts : Prop extends Facts₀ where

variable [Facts]
-- ==== Proof.LibMeanAggregate.lean ====
/-
  One mean-aggregate layer of a graph network at the ideal values: for a diffusion matrix `D` [M × S], gathered source
  rows `src` [S × 128], gathered destination rows `dst` [M × 128] and weights `w` [256 × 128],

      layer D src dst w (r, c) = max (∑ j < 256, cat (r, j) · w (j, c)) 0,
      cat (r, j) = ∑ k < S, D (r, k) · src (k, j)   for j < 128,      cat (r, j) = dst (r, j − 128)   for j ≥ 128.

  Both spellings of it are read here at an index, for any sizes M and S: the host's (two `dot_general`s around a
  `concatenate`, then a maximum against a broadcast zero) and a TensorCore body's (two `tpu.matmul`s into zero
  accumulators around a `tpu.concatenate`, format changes and shape casts that are the identity at the ideal values,
  then `arith.maximumf` against a splat zero). Row `r` of the layer reads only row `r` of `D` and of `dst`
  (`layer_row_congr`), so a block of rows of the result is the layer of the blocks of rows.
-/
import Idealize.ShloMosaic.Lib.ValueIdx
import Idealize.ShloMosaic.Lib.Pipeline.Value
import Idealize.ShloMosaic.PureOps.Ideal.Laws

noncomputable section

open scoped BigOperators

namespace Idealize.ShloMosaic.MeanAggregate

open Idealize.ShloMosaic Idealize.ShloMosaic.ValueIdx

private theorem plain_lhs_0 (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
private theorem plain_lhs_1 (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
private theorem plain_rhs_0 (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
private theorem plain_rhs_1 (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain dot at (r, c), re-indexed by the one contracted coordinate. -/
private theorem plain_contr_sum {φ₁ φ₂ : FTy} (M K N : Nat)
    (lhs : FVec Ideal ⟨2, ![M, K]⟩ φ₁) (rhs : FVec Ideal ⟨2, ![K, N]⟩ φ₂) (r : Fin M) (c : Fin N) :
    ∑ k : (DotDims.plain M K N).contr.Idx,
        lhs ((DotDims.plain M K N).lhsIdx (ix2 r c) k) * rhs ((DotDims.plain M K N).rhsIdx (ix2 r c) k)
      = ∑ k : Fin K, lhs (ix2 r k) * rhs (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact plain_lhs_0 M K N _ _
      | ⟨1, _⟩ => exact (plain_lhs_1 M K N _ _).trans hk)
  have er : (DotDims.plain M K N).rhsIdx (ix2 r c) ((contrEquiv1 (DotDims.plain M K N) K rfl rfl).symm k) = ix2 k c :=
    funext fun a => Fin.ext (by
      match a with
      | ⟨0, _⟩ => exact (plain_rhs_0 M K N _ _).trans hk
      | ⟨1, _⟩ => exact plain_rhs_1 M K N _ _)
  rw [el, er]

/-- A plain [M × K] by [K × N] `tpu.matmul` into the zero accumulator, at the ideal values, read at (r, c). -/
theorem plain_matmul_zero_apply {φ₁ φ₂ : FTy} (M K N : Nat) (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant ⟨2, ![M, N]⟩ .f32 0x00000000#32) (ix2 r c)
      = ∑ k : Fin K, lhs (ix2 r k) * rhs (ix2 k c) := by
  simp only [matmul]
  rw [Ideal.matmul_constant_zero_apply]
  exact plain_contr_sum M K N lhs rhs r c

/-- The host's plain [M × K] by [K × N] `dot_general`, at the ideal values, read at (r, c). -/
theorem plain_dotGeneral_apply {φ₁ φ₂ : FTy} (M K N : Nat) (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  simp only [Host.dotGeneral]
  rw [Ideal.dotGeneral_apply]
  exact plain_contr_sum M K N lhs rhs r c

/-- Two pieces [M × A] and [M × B] joined along the columns into [M × C], C = A + B, read at (r, j). -/
theorem concat_cols_apply {α : Type} (M A B C : Nat) (hC : C = A + B) (x : (⟨2, ![M, A]⟩ : Shape).Idx → α)
    (y : (⟨2, ![M, B]⟩ : Shape).Idx → α)
    (h : Shape.Concatenates (([⟨⟨2, ![M, A]⟩, x⟩, ⟨⟨2, ![M, B]⟩, y⟩] : List ((s : Shape) × (s.Idx → α))).map (·.1)) ⟨2, ![M, C]⟩ 1)
    (r : Fin M) (j : Fin C) :
    concatenate ⟨2, ![M, C]⟩ 1 [⟨⟨2, ![M, A]⟩, x⟩, ⟨⟨2, ![M, B]⟩, y⟩] h (ix2 r j)
      = if hj : j.val < A then x (ix2 r ⟨j.val, hj⟩) else y (ix2 r ⟨j.val - A, by omega⟩) := by
  by_cases hj : j.val < A
  · rw [dif_pos hj]
    exact concatenate_apply_piece (t := ⟨2, ![M, C]⟩) 1 _ h (ix2 r j) 0 (by simp) ⟨2, ![M, A]⟩ x rfl rfl 0 rfl
      (ix2 r ⟨j.val, hj⟩)
      (fun b hb => by
        match b with
        | ⟨0, _⟩ => rfl
        | ⟨1, _⟩ => exact absurd rfl hb)
      (by show 0 + j.val = j.val; omega)
  · rw [dif_neg hj]
    exact concatenate_apply_piece (t := ⟨2, ![M, C]⟩) 1 _ h (ix2 r j) 1 (by simp) ⟨2, ![M, B]⟩ y rfl rfl A rfl
      (ix2 r ⟨j.val - A, by omega⟩)
      (fun b hb => by
        match b with
        | ⟨0, _⟩ => rfl
        | ⟨1, _⟩ => exact absurd rfl hb)
      (by show A + (j.val - A) = j.val; omega)

/-- The layer at row `r`, column `c`. -/
def layerAt (M S : Nat) (D : (⟨2, ![M, S]⟩ : Shape).Idx → EReal) (src : (⟨2, ![S, 128]⟩ : Shape).Idx → EReal)
    (dst : (⟨2, ![M, 128]⟩ : Shape).Idx → EReal) (w : (⟨2, ![256, 128]⟩ : Shape).Idx → EReal) (r : Fin M) (c : Fin 128) : EReal :=
  max (∑ j : Fin 256, (if hj : j.val < 128 then ∑ k : Fin S, D (ix2 r k) * src (ix2 k (⟨j.val, hj⟩ : Fin 128))
      else dst (ix2 r (⟨j.val - 128, by omega⟩ : Fin 128))) * w (ix2 j c)) 0

/-- The layer as an array. -/
def layer (M S : Nat) (D : (⟨2, ![M, S]⟩ : Shape).Idx → EReal) (src : (⟨2, ![S, 128]⟩ : Shape).Idx → EReal)
    (dst : (⟨2, ![M, 128]⟩ : Shape).Idx → EReal) (w : (⟨2, ![256, 128]⟩ : Shape).Idx → EReal) :
    (⟨2, ![M, 128]⟩ : Shape).Idx → EReal :=
  fun i => layerAt M S D src dst w (i 0) (i 1)

theorem layer_apply (M S : Nat) (D : (⟨2, ![M, S]⟩ : Shape).Idx → EReal) (src : (⟨2, ![S, 128]⟩ : Shape).Idx → EReal)
    (dst : (⟨2, ![M, 128]⟩ : Shape).Idx → EReal) (w : (⟨2, ![256, 128]⟩ : Shape).Idx → EReal) (r : Fin M) (c : Fin 128) :
    layer M S D src dst w (ix2 r c) = layerAt M S D src dst w r c := rfl

/-- Row `r` of the layer reads only row `r` of `D` and of `dst`. -/
theorem layer_row_congr (M M' S : Nat) (D : (⟨2, ![M, S]⟩ : Shape).Idx → EReal) (D' : (⟨2, ![M', S]⟩ : Shape).Idx → EReal)
    (src : (⟨2, ![S, 128]⟩ : Shape).Idx → EReal) (dst : (⟨2, ![M, 128]⟩ : Shape).Idx → EReal)
    (dst' : (⟨2, ![M', 128]⟩ : Shape).Idx → EReal) (w : (⟨2, ![256, 128]⟩ : Shape).Idx → EReal) (r : Fin M) (r' : Fin M') (c : Fin 128)
    (hD : ∀ k : Fin S, D (ix2 r k) = D' (ix2 r' k)) (hdst : ∀ q : Fin 128, dst (ix2 r q) = dst' (ix2 r' q)) :
    layer M S D src dst w (ix2 r c) = layer M' S D' src dst' w (ix2 r' c) := by
  show layerAt M S D src dst w r c = layerAt M' S D' src dst' w r' c
  unfold layerAt
  congr 1
  refine Finset.sum_congr rfl fun j _ => ?_
  congr 1
  by_cases hj : j.val < 128
  · rw [dif_pos hj, dif_pos hj]
    exact Finset.sum_congr rfl fun k _ => by rw [hD k]
  · rw [dif_neg hj, dif_neg hj]
    exact hdst _

/-- The host's spelling is the layer. -/
theorem host_layer_eq (M S : Nat) (D : FVec Ideal ⟨2, ![M, S]⟩ .f32) (src : FVec Ideal ⟨2, ![S, 128]⟩ .f32)
    (dst : FVec Ideal ⟨2, ![M, 128]⟩ .f32) (w : FVec Ideal ⟨2, ![256, 128]⟩ .f32)
    (hcat : Shape.Concatenates (([⟨⟨2, ![M, 128]⟩, Host.dotGeneral (DotDims.plain M S 128) none D src⟩, ⟨⟨2, ![M, 128]⟩, dst⟩] :
      List ((s : Shape) × (s.Idx → EReal))).map (·.1)) ⟨2, ![M, 256]⟩ 1)
    (hb : (⟨0, ![]⟩ : Shape).BroadcastsInDim ⟨2, ![M, 128]⟩ (![] : Fin 0 → Fin 2)) :
    maximumf (Host.dotGeneral (DotDims.plain M 256 128) none
        (concatenate ⟨2, ![M, 256]⟩ 1 [⟨⟨2, ![M, 128]⟩, Host.dotGeneral (DotDims.plain M S 128) none D src⟩, ⟨⟨2, ![M, 128]⟩, dst⟩] hcat) w)
      (broadcastInDim ⟨2, ![M, 128]⟩ ![] hb (constant (F := Ideal) ⟨0, ![]⟩ .f32 0x00000000#32))
      = layer M S D src dst w := by
  funext i
  obtain ⟨r, c, rfl⟩ : ∃ (r : Fin M) (c : Fin 128), i = ix2 r c := ⟨i 0, i 1, eq_ix2 i⟩
  rw [maximumf_apply, plain_dotGeneral_apply, layer_apply]
  unfold layerAt
  congr 1
  · refine Finset.sum_congr rfl fun j _ => ?_
    congr 1
    rw [concat_cols_apply M 128 128 256 rfl]
    by_cases hj : j.val < 128
    · rw [dif_pos hj, dif_pos hj, plain_dotGeneral_apply]
    · rw [dif_neg hj, dif_neg hj]
  · rw [broadcastInDim_apply ![] hb _ (ix2 r c) ix0 (fun a => a.elim0), constant_apply, Ideal.ofBits_zero_f32]

/-- A TensorCore body's spelling is the layer (the bf16 narrowing and the two shape casts to the same shape are the identity
    at the ideal values). -/
theorem kernel_layer_eq (M S : Nat) (x0 : FVec Ideal ⟨2, ![M, S]⟩ .f32) (x1 : FVec Ideal ⟨2, ![S, 128]⟩ .bf16)
    (x2 : FVec Ideal ⟨2, ![M, 128]⟩ .f32) (x3 : FVec Ideal ⟨2, ![256, 128]⟩ .f32) (hlt : FTy.bf16.bits < FTy.f32.bits)
    (hc1 : (⟨2, ![S, 128]⟩ : Shape).ShapeCasts ⟨2, ![S, 128]⟩) (hc2 : (⟨2, ![M, 128]⟩ : Shape).ShapeCasts ⟨2, ![M, 128]⟩)
    (hcat : Shape.Concatenates (([⟨⟨2, ![M, 128]⟩, matmul (DotDims.plain M S 128) none (truncf .bf16 x0 hlt) (shapeCast ⟨2, ![S, 128]⟩ x1 hc1)
        (constant ⟨2, ![M, 128]⟩ .f32 0x00000000#32)⟩, ⟨⟨2, ![M, 128]⟩, shapeCast ⟨2, ![M, 128]⟩ x2 hc2⟩] :
      List ((s : Shape) × (s.Idx → EReal))).map (·.1)) ⟨2, ![M, 256]⟩ 1) :
    maximumf (matmul (DotDims.plain M 256 128) (some .fp32)
        (concatenate ⟨2, ![M, 256]⟩ 1 [⟨⟨2, ![M, 128]⟩, matmul (DotDims.plain M S 128) none (truncf .bf16 x0 hlt) (shapeCast ⟨2, ![S, 128]⟩ x1 hc1)
          (constant ⟨2, ![M, 128]⟩ .f32 0x00000000#32)⟩, ⟨⟨2, ![M, 128]⟩, shapeCast ⟨2, ![M, 128]⟩ x2 hc2⟩] hcat)
        x3 (constant ⟨2, ![M, 128]⟩ .f32 0x00000000#32))
      (broadcast ⟨2, ![M, 128]⟩ (Scalar.ofBits (F := Ideal) .f32 0x00000000#32))
      = layer M S x0 x1 x2 x3 := by
  funext i
  obtain ⟨r, c, rfl⟩ : ∃ (r : Fin M) (c : Fin 128), i = ix2 r c := ⟨i 0, i 1, eq_ix2 i⟩
  rw [maximumf_apply, plain_matmul_zero_apply, layer_apply, broadcast_apply]
  unfold layerAt
  congr 1
  · refine Finset.sum_congr rfl fun j _ => ?_
    congr 1
    rw [concat_cols_apply M 128 128 256 rfl]
    by_cases hj : j.val < 128
    · rw [dif_pos hj, dif_pos hj, plain_matmul_zero_apply]
      refine Finset.sum_congr rfl fun k _ => ?_
      rw [truncf_apply, shapeCast_self]
    · rw [dif_neg hj, dif_neg hj, shapeCast_self]
  · exact Ideal.ofBits_zero_f32

end Idealize.ShloMosaic.MeanAggregate

end
-- ==== Proof.EdgeMlp.lean ====
/-
  The edge model of a message-passing layer at the ideal values. An edge e has the feature row

      feat e = [ xr e | xc e | ea e ]        (128 + 128 + 64 = 320 columns:
                                               the source node's row, the target node's row, the edge's own attributes),

  and the model is a two-layer perceptron on it:

      hid e h = max (∑ k < 320, feat e k · W1 (k, h) + b1 h) 0          (h < 256),
      out e o = ∑ h < 256, hid e h · W2 (h, o) + b2 o                    (o < 64).

  Both spellings of it are read here at an index, for any number M of edges: the host's (a three-piece concatenate, two
  dot_generals, the biases broadcast as [n] → [1 × n] → [M × n], a maximum against a broadcast zero) and a TensorCore
  body's (a three-piece concatenate, two matmuls into zero accumulators, format changes and same-shape casts that are the
  identity at the ideal values, the biases cast to [1 × n] and broadcast over the rows, a maximum against a splat zero).
  No law of the extended reals is used beyond reading each operation at an index: the two spellings are the same sums in
  the same order. Row e of the result reads only row e of the three per-edge arrays (out_row_congr), so a block of rows
  of the result is the model of the blocks of rows.
-/
import Idealize.ShloMosaic.Lib.ValueIdx
import Idealize.ShloMosaic.Lib.Pipeline.Value
import Idealize.ShloMosaic.Lib.ValueLayout
import Idealize.ShloMosaic.PureOps.Ideal.Laws
import proofs.«401332_j4329327035190_1_alg».proof.Proof.LibMeanAggregate

noncomputable section

open scoped BigOperators

namespace Cert.EdgeMlp

open Idealize.ShloMosaic Idealize.ShloMosaic.ValueIdx Idealize.ShloMosaic.MeanAggregate

/-- Three pieces [M × A], [M × B], [M × C] joined along the columns into [M × D], D = A + B + C, read at (r, j): the piece
    whose span of columns holds j, at j less the columns before it. -/
theorem concat3_cols_apply {α : Type} (M A B C D : Nat) (hD : D = A + B + C) (x : (⟨2, ![M, A]⟩ : Shape).Idx → α)
    (y : (⟨2, ![M, B]⟩ : Shape).Idx → α) (z : (⟨2, ![M, C]⟩ : Shape).Idx → α)
    (h : Shape.Concatenates (([⟨⟨2, ![M, A]⟩, x⟩, ⟨⟨2, ![M, B]⟩, y⟩, ⟨⟨2, ![M, C]⟩, z⟩] : List ((s : Shape) × (s.Idx → α))).map (·.1))
      ⟨2, ![M, D]⟩ 1)
    (r : Fin M) (j : Fin D) :
    concatenate ⟨2, ![M, D]⟩ 1 [⟨⟨2, ![M, A]⟩, x⟩, ⟨⟨2, ![M, B]⟩, y⟩, ⟨⟨2, ![M, C]⟩, z⟩] h (ix2 r j)
      = if h1 : j.val < A then x (ix2 r ⟨j.val, h1⟩)
        else if h2 : j.val < A + B then y (ix2 r ⟨j.val - A, by omega⟩)
        else z (ix2 r ⟨j.val - (A + B), by omega⟩) := by
  by_cases h1 : j.val < A
  · rw [dif_pos h1]
    exact concatenate_apply_piece (t := ⟨2, ![M, D]⟩) 1 _ h (ix2 r j) 0 (by simp) ⟨2, ![M, A]⟩ x rfl rfl 0 rfl
      (ix2 r ⟨j.val, h1⟩)
      (fun b hb => by
        match b with
        | ⟨0, _⟩ => rfl
        | ⟨1, _⟩ => exact absurd rfl hb)
      (by show 0 + j.val = j.val; omega)
  · rw [dif_neg h1]
    by_cases h2 : j.val < A + B
    · rw [dif_pos h2]
      exact concatenate_apply_piece (t := ⟨2, ![M, D]⟩) 1 _ h (ix2 r j) 1 (by simp) ⟨2, ![M, B]⟩ y rfl rfl A rfl
        (ix2 r ⟨j.val - A, by omega⟩)
        (fun b hb => by
          match b with
          | ⟨0, _⟩ => rfl
          | ⟨1, _⟩ => exact absurd rfl hb)
        (by show A + (j.val - A) = j.val; omega)
    · rw [dif_neg h2]
      exact concatenate_apply_piece (t := ⟨2, ![M, D]⟩) 1 _ h (ix2 r j) 2 (by simp) ⟨2, ![M, C]⟩ z rfl rfl (A + B) rfl
        (ix2 r ⟨j.val - (A + B), by omega⟩)
        (fun b hb => by
          match b with
          | ⟨0, _⟩ => rfl
          | ⟨1, _⟩ => exact absurd rfl hb)
        (by show A + B + (j.val - (A + B)) = j.val; omega)

/-- A vector [N] laid out as one row [1 × N] and that row repeated down M rows reads, at (r, c), the vector at c. -/
theorem bcast_row_apply {α : Type} (M N : Nat) (h₁ : (⟨1, ![N]⟩ : Shape).BroadcastsInDim ⟨2, ![1, N]⟩ ![1])
    (h₂ : (⟨2, ![1, N]⟩ : Shape).BroadcastsInDim ⟨2, ![M, N]⟩ ![0, 1]) (v : (⟨1, ![N]⟩ : Shape).Idx → α) (r : Fin M) (c : Fin N) :
    broadcastInDim ⟨2, ![M, N]⟩ ![0, 1] h₂ (broadcastInDim ⟨2, ![1, N]⟩ ![1] h₁ v) (ix2 r c) = v (ix1 c) := by
  refine (broadcastInDim_apply ![0, 1] h₂ _ (ix2 r c) (ix2 (0 : Fin 1) c) fun a => ?_).trans
    (broadcastInDim_apply ![1] h₁ v (ix2 (0 : Fin 1) c) (ix1 c) fun a => ?_)
  · match a with
    | ⟨0, _⟩ => rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A vector [N] cast to one row [1 × N] and that row broadcast over M rows reads, at (r, c), the vector at c. -/
theorem cast_row_apply {α : Type} (M N : Nat) (h₁ : (⟨1, ![N]⟩ : Shape).ShapeCasts ⟨2, ![1, N]⟩)
    (h₂ : (⟨2, ![1, N]⟩ : Shape).Broadcasts ⟨2, ![M, N]⟩) (v : (⟨1, ![N]⟩ : Shape).Idx → α) (r : Fin M) (c : Fin N) :
    broadcastTo ⟨2, ![M, N]⟩ (shapeCast ⟨2, ![1, N]⟩ v h₁) h₂ (ix2 r c) = v (ix1 c) := by
  rw [broadcastTo_1b_ab_apply, shapeCast_a_1a_apply]

section Model

variable (M : Nat) (xr xc : (⟨2, ![M, 128]⟩ : Shape).Idx → EReal) (ea : (⟨2, ![M, 64]⟩ : Shape).Idx → EReal)
  (W1 : (⟨2, ![320, 256]⟩ : Shape).Idx → EReal) (b1 : (⟨1, ![256]⟩ : Shape).Idx → EReal)
  (W2 : (⟨2, ![256, 64]⟩ : Shape).Idx → EReal) (b2 : (⟨1, ![64]⟩ : Shape).Idx → EReal)

/-- Column j of edge r's feature row: the source node's row, then the target node's row, then the edge's attributes. -/
def feat (r : Fin M) (j : Fin 320) : EReal :=
  if h1 : j.val < 128 then xr (ix2 r ⟨j.val, h1⟩)
  else if h2 : j.val < 128 + 128 then xc (ix2 r ⟨j.val - 128, by omega⟩)
  else ea (ix2 r ⟨j.val - (128 + 128), by omega⟩)

/-- Hidden unit h of edge r: the rectified affine image of its feature row. -/
def hidAt (r : Fin M) (h : Fin 256) : EReal :=
  max ((∑ k : Fin 320, feat M xr xc ea r k * W1 (ix2 k h)) + b1 (ix1 h)) 0

/-- Output o of edge r: the affine image of its hidden row. -/
def outAt (r : Fin M) (o : Fin 64) : EReal :=
  (∑ h : Fin 256, hidAt M xr xc ea W1 b1 r h * W2 (ix2 h o)) + b2 (ix1 o)

/-- The model as an [M × 64] array. -/
def out : (⟨2, ![M, 64]⟩ : Shape).Idx → EReal := fun i => outAt M xr xc ea W1 b1 W2 b2 (i 0) (i 1)

theorem out_apply (r : Fin M) (o : Fin 64) : out M xr xc ea W1 b1 W2 b2 (ix2 r o) = outAt M xr xc ea W1 b1 W2 b2 r o := rfl

end Model

/-- Row r of the model reads only row r of the three per-edge arrays. -/
theorem out_row_congr (M M' : Nat) (xr xc : (⟨2, ![M, 128]⟩ : Shape).Idx → EReal) (ea : (⟨2, ![M, 64]⟩ : Shape).Idx → EReal)
    (xr' xc' : (⟨2, ![M', 128]⟩ : Shape).Idx → EReal) (ea' : (⟨2, ![M', 64]⟩ : Shape).Idx → EReal)
    (W1 : (⟨2, ![320, 256]⟩ : Shape).Idx → EReal) (b1 : (⟨1, ![256]⟩ : Shape).Idx → EReal)
    (W2 : (⟨2, ![256, 64]⟩ : Shape).Idx → EReal) (b2 : (⟨1, ![64]⟩ : Shape).Idx → EReal) (r : Fin M) (r' : Fin M') (o : Fin 64)
    (hr : ∀ q : Fin 128, xr (ix2 r q) = xr' (ix2 r' q)) (hc : ∀ q : Fin 128, xc (ix2 r q) = xc' (ix2 r' q))
    (he : ∀ q : Fin 64, ea (ix2 r q) = ea' (ix2 r' q)) :
    out M xr xc ea W1 b1 W2 b2 (ix2 r o) = out M' xr' xc' ea' W1 b1 W2 b2 (ix2 r' o) := by
  have hf : ∀ k : Fin 320, feat M xr xc ea r k = feat M' xr' xc' ea' r' k := fun k => by
    unfold feat
    by_cases h1 : k.val < 128
    · rw [dif_pos h1, dif_pos h1]; exact hr _
    · rw [dif_neg h1, dif_neg h1]
      by_cases h2 : k.val < 128 + 128
      · rw [dif_pos h2, dif_pos h2]; exact hc _
      · rw [dif_neg h2, dif_neg h2]; exact he _
  show outAt M xr xc ea W1 b1 W2 b2 r o = outAt M' xr' xc' ea' W1 b1 W2 b2 r' o
  unfold outAt hidAt
  simp only [hf]

/-- The host's hidden layer at (r, h). -/
theorem host_hid (M : Nat) (xr xc : FVec Ideal ⟨2, ![M, 128]⟩ .f32) (ea : FVec Ideal ⟨2, ![M, 64]⟩ .f32)
    (W1 : FVec Ideal ⟨2, ![320, 256]⟩ .f32) (b1 : FVec Ideal ⟨1, ![256]⟩ .f32)
    (hcat : Shape.Concatenates (([⟨⟨2, ![M, 128]⟩, xr⟩, ⟨⟨2, ![M, 128]⟩, xc⟩, ⟨⟨2, ![M, 64]⟩, ea⟩] :
      List ((s : Shape) × (s.Idx → EReal))).map (·.1)) ⟨2, ![M, 320]⟩ 1)
    (hb1 : (⟨1, ![256]⟩ : Shape).BroadcastsInDim ⟨2, ![1, 256]⟩ ![1])
    (hb1' : (⟨2, ![1, 256]⟩ : Shape).BroadcastsInDim ⟨2, ![M, 256]⟩ ![0, 1])
    (hz : (⟨0, ![]⟩ : Shape).BroadcastsInDim ⟨2, ![M, 256]⟩ (![] : Fin 0 → Fin 2)) (r : Fin M) (h : Fin 256) :
    maximumf
        (addf (Host.dotGeneral (DotDims.plain M 320 256) none
            (concatenate ⟨2, ![M, 320]⟩ 1 [⟨⟨2, ![M, 128]⟩, xr⟩, ⟨⟨2, ![M, 128]⟩, xc⟩, ⟨⟨2, ![M, 64]⟩, ea⟩] hcat) W1)
          (broadcastInDim ⟨2, ![M, 256]⟩ ![0, 1] hb1' (broadcastInDim ⟨2, ![1, 256]⟩ ![1] hb1 b1)))
        (broadcastInDim ⟨2, ![M, 256]⟩ ![] hz (constant (F := Ideal) ⟨0, ![]⟩ .f32 0x00000000#32)) (ix2 r h)
      = hidAt M xr xc ea W1 b1 r h := by
  have hf : ∀ k : Fin 320, concatenate ⟨2, ![M, 320]⟩ 1 [⟨⟨2, ![M, 128]⟩, xr⟩, ⟨⟨2, ![M, 128]⟩, xc⟩, ⟨⟨2, ![M, 64]⟩, ea⟩] hcat (ix2 r k)
      = feat M xr xc ea r k := fun k => by
    rw [concat3_cols_apply M 128 128 64 320 rfl]
    rfl
  rw [maximumf_apply, addf_apply, plain_dotGeneral_apply, bcast_row_apply,
    broadcastInDim_apply ![] hz _ (ix2 r h) ix0 (fun a => a.elim0), constant_apply, Ideal.ofBits_zero_f32]
  unfold hidAt
  simp only [hf]

theorem host_eq (M : Nat) (xr xc : FVec Ideal ⟨2, ![M, 128]⟩ .f32) (ea : FVec Ideal ⟨2, ![M, 64]⟩ .f32)
    (W1 : FVec Ideal ⟨2, ![320, 256]⟩ .f32) (b1 : FVec Ideal ⟨1, ![256]⟩ .f32)
    (W2 : FVec Ideal ⟨2, ![256, 64]⟩ .f32) (b2 : FVec Ideal ⟨1, ![64]⟩ .f32)
    (hcat : Shape.Concatenates (([⟨⟨2, ![M, 128]⟩, xr⟩, ⟨⟨2, ![M, 128]⟩, xc⟩, ⟨⟨2, ![M, 64]⟩, ea⟩] :
      List ((s : Shape) × (s.Idx → EReal))).map (·.1)) ⟨2, ![M, 320]⟩ 1)
    (hb1 : (⟨1, ![256]⟩ : Shape).BroadcastsInDim ⟨2, ![1, 256]⟩ ![1])
    (hb1' : (⟨2, ![1, 256]⟩ : Shape).BroadcastsInDim ⟨2, ![M, 256]⟩ ![0, 1])
    (hz : (⟨0, ![]⟩ : Shape).BroadcastsInDim ⟨2, ![M, 256]⟩ (![] : Fin 0 → Fin 2))
    (hb2 : (⟨1, ![64]⟩ : Shape).BroadcastsInDim ⟨2, ![1, 64]⟩ ![1])
    (hb2' : (⟨2, ![1, 64]⟩ : Shape).BroadcastsInDim ⟨2, ![M, 64]⟩ ![0, 1]) :
    addf (Host.dotGeneral (DotDims.plain M 256 64) none
        (maximumf
          (addf (Host.dotGeneral (DotDims.plain M 320 256) none
              (concatenate ⟨2, ![M, 320]⟩ 1 [⟨⟨2, ![M, 128]⟩, xr⟩, ⟨⟨2, ![M, 128]⟩, xc⟩, ⟨⟨2, ![M, 64]⟩, ea⟩] hcat) W1)
            (broadcastInDim ⟨2, ![M, 256]⟩ ![0, 1] hb1' (broadcastInDim ⟨2, ![1, 256]⟩ ![1] hb1 b1)))
          (broadcastInDim ⟨2, ![M, 256]⟩ ![] hz (constant (F := Ideal) ⟨0, ![]⟩ .f32 0x00000000#32)))
        W2)
      (broadcastInDim ⟨2, ![M, 64]⟩ ![0, 1] hb2' (broadcastInDim ⟨2, ![1, 64]⟩ ![1] hb2 b2))
      = out M xr xc ea W1 b1 W2 b2 := by
  funext i
  obtain ⟨r, o, rfl⟩ : ∃ (r : Fin M) (o : Fin 64), i = ix2 r o := ⟨i 0, i 1, eq_ix2 i⟩
  rw [addf_apply, plain_dotGeneral_apply, out_apply, bcast_row_apply]
  unfold outAt
  exact congrArg (fun s => s + b2 (ix1 o)) (Finset.sum_congr rfl fun h _ => by rw [host_hid])

/-- A TensorCore body's hidden layer at (r, h). -/
theorem body_hid (M : Nat) (x0 x1 : FVec Ideal ⟨2, ![M, 128]⟩ .f32) (x2 : FVec Ideal ⟨2, ![M, 64]⟩ .f32)
    (x3 : FVec Ideal ⟨2, ![320, 256]⟩ .f32) (x4 : FVec Ideal ⟨1, ![256]⟩ .f32) (hlt : FTy.bf16.bits < FTy.f32.bits)
    (hc : (⟨2, ![M, 128]⟩ : Shape).ShapeCasts ⟨2, ![M, 128]⟩)
    (hcat : Shape.Concatenates (([⟨⟨2, ![M, 128]⟩, shapeCast ⟨2, ![M, 128]⟩ x0 hc⟩, ⟨⟨2, ![M, 128]⟩, shapeCast ⟨2, ![M, 128]⟩ x1 hc⟩,
      ⟨⟨2, ![M, 64]⟩, x2⟩] : List ((s : Shape) × (s.Idx → EReal))).map (·.1)) ⟨2, ![M, 320]⟩ 1)
    (hs1 : (⟨1, ![256]⟩ : Shape).ShapeCasts ⟨2, ![1, 256]⟩) (hbt1 : (⟨2, ![1, 256]⟩ : Shape).Broadcasts ⟨2, ![M, 256]⟩)
    (r : Fin M) (h : Fin 256) :
    maximumf
        (addf (matmul (DotDims.plain M 320 256) none
            (truncf .bf16 (concatenate ⟨2, ![M, 320]⟩ 1 [⟨⟨2, ![M, 128]⟩, shapeCast ⟨2, ![M, 128]⟩ x0 hc⟩,
              ⟨⟨2, ![M, 128]⟩, shapeCast ⟨2, ![M, 128]⟩ x1 hc⟩, ⟨⟨2, ![M, 64]⟩, x2⟩] hcat) hlt)
            (truncf .bf16 x3 hlt) (constant ⟨2, ![M, 256]⟩ .f32 0x00000000#32))
          (broadcastTo ⟨2, ![M, 256]⟩ (shapeCast ⟨2, ![1, 256]⟩ x4 hs1) hbt1))
        (broadcast ⟨2, ![M, 256]⟩ (Scalar.ofBits (F := Ideal) .f32 0x00000000#32)) (ix2 r h)
      = hidAt M x0 x1 x2 x3 x4 r h := by
  have hf : ∀ k : Fin 320, concatenate ⟨2, ![M, 320]⟩ 1 [⟨⟨2, ![M, 128]⟩, shapeCast ⟨2, ![M, 128]⟩ x0 hc⟩,
      ⟨⟨2, ![M, 128]⟩, shapeCast ⟨2, ![M, 128]⟩ x1 hc⟩, ⟨⟨2, ![M, 64]⟩, x2⟩] hcat (ix2 r k) = feat M x0 x1 x2 r k := fun k => by
    rw [concat3_cols_apply M 128 128 64 320 rfl, shapeCast_self, shapeCast_self]
    rfl
  rw [maximumf_apply, addf_apply, plain_matmul_zero_apply, cast_row_apply, broadcast_apply]
  unfold hidAt
  simp only [truncf_apply, hf]
  exact congrArg (max _) Ideal.ofBits_zero_f32

/-- A TensorCore body's spelling is the model (the narrowings to bf16 and the two casts to the same shape are the identity
    at the ideal values). -/
theorem body_eq (M : Nat) (x0 x1 : FVec Ideal ⟨2, ![M, 128]⟩ .f32) (x2 : FVec Ideal ⟨2, ![M, 64]⟩ .f32)
    (x3 : FVec Ideal ⟨2, ![320, 256]⟩ .f32) (x4 : FVec Ideal ⟨1, ![256]⟩ .f32)
    (x5 : FVec Ideal ⟨2, ![256, 64]⟩ .f32) (x6 : FVec Ideal ⟨1, ![64]⟩ .f32) (hlt : FTy.bf16.bits < FTy.f32.bits)
    (hc : (⟨2, ![M, 128]⟩ : Shape).ShapeCasts ⟨2, ![M, 128]⟩)
    (hcat : Shape.Concatenates (([⟨⟨2, ![M, 128]⟩, shapeCast ⟨2, ![M, 128]⟩ x0 hc⟩, ⟨⟨2, ![M, 128]⟩, shapeCast ⟨2, ![M, 128]⟩ x1 hc⟩,
      ⟨⟨2, ![M, 64]⟩, x2⟩] : List ((s : Shape) × (s.Idx → EReal))).map (·.1)) ⟨2, ![M, 320]⟩ 1)
    (hs1 : (⟨1, ![256]⟩ : Shape).ShapeCasts ⟨2, ![1, 256]⟩) (hbt1 : (⟨2, ![1, 256]⟩ : Shape).Broadcasts ⟨2, ![M, 256]⟩)
    (hs2 : (⟨1, ![64]⟩ : Shape).ShapeCasts ⟨2, ![1, 64]⟩) (hbt2 : (⟨2, ![1, 64]⟩ : Shape).Broadcasts ⟨2, ![M, 64]⟩) :
    addf (matmul (DotDims.plain M 256 64) none
        (truncf .bf16
          (maximumf
            (addf (matmul (DotDims.plain M 320 256) none
                (truncf .bf16 (concatenate ⟨2, ![M, 320]⟩ 1 [⟨⟨2, ![M, 128]⟩, shapeCast ⟨2, ![M, 128]⟩ x0 hc⟩,
                  ⟨⟨2, ![M, 128]⟩, shapeCast ⟨2, ![M, 128]⟩ x1 hc⟩, ⟨⟨2, ![M, 64]⟩, x2⟩] hcat) hlt)
                (truncf .bf16 x3 hlt) (constant ⟨2, ![M, 256]⟩ .f32 0x00000000#32))
              (broadcastTo ⟨2, ![M, 256]⟩ (shapeCast ⟨2, ![1, 256]⟩ x4 hs1) hbt1))
            (broadcast ⟨2, ![M, 256]⟩ (Scalar.ofBits (F := Ideal) .f32 0x00000000#32))) hlt)
        (truncf .bf16 x5 hlt) (constant ⟨2, ![M, 64]⟩ .f32 0x00000000#32))
      (broadcastTo ⟨2, ![M, 64]⟩ (shapeCast ⟨2, ![1, 64]⟩ x6 hs2) hbt2)
      = out M x0 x1 x2 x3 x4 x5 x6 := by
  funext i
  obtain ⟨r, o, rfl⟩ : ∃ (r : Fin M) (o : Fin 64), i = ix2 r o := ⟨i 0, i 1, eq_ix2 i⟩
  rw [addf_apply, plain_matmul_zero_apply, out_apply, cast_row_apply]
  unfold outAt
  exact congrArg (fun s => s + x6 (ix1 o)) (Finset.sum_congr rfl fun h _ => by rw [truncf_apply, truncf_apply, body_hid])

end Cert.EdgeMlp

end
-- ==== Proof.KernelBlocks.lean ====
/-
  The kernel's result array as one function of the arrays its region is launched on.

  The region runs 125 grid points; point t stages rows [4000 t, 4000 t + 4000) of the two gathered node-feature arrays and
  of the edge attributes, the two weight matrices and the two biases whole, and writes back rows [4000 t, 4000 t + 4000)
  of the result. Its body computes the edge model (EdgeMlp.out) of the staged blocks. Row e of the edge model reads only
  row e of the per-edge arrays, so what point t writes back is block t of the edge model of the WHOLE arrays; the 125
  blocks tile the result, so after the run the result array is that model.
-/
import proofs.«401332_j4329327035190_1_alg».proof.Proof.Gen.KernelIdeal.Value
import proofs.«401332_j4329327035190_1_alg».proof.Proof.EdgeMlp
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The body's payload is the edge model of its loaded blocks -/

theorem pay_eq (x0 x1 : Vec Ideal S4000x128 .f32) (x2 : Vec Ideal S4000x64 .f32) (x3 : Vec Ideal S320x256 .f32)
    (x4 : Vec Ideal S256 .f32) (x5 : Vec Ideal S256x64 .f32) (x6 : Vec Ideal S64 .f32) :
    k0_pay1 (F := Ideal) x0 x1 x2 x3 x4 x5 x6 = Cert.EdgeMlp.out 4000 x0 x1 x2 x3 x4 x5 x6 := by
  unfold k0_pay1
  exact Cert.EdgeMlp.body_eq 4000 x0 x1 x2 x3 x4 x5 x6 _ _ _ _ _ _ _

/-! ## The arrays the region finds, and the blocks a point stages, under their literal types -/

abbrev rowsArr (c : Dev nD) : Vec Ideal S500000x128 .f32 := V m c main_v4
abbrev colsArr (c : Dev nD) : Vec Ideal S500000x128 .f32 := V m c main_v5
abbrev attrArr (c : Dev nD) : Vec Ideal S500000x64 .f32 := V m c main_arg2
abbrev w1Arr (c : Dev nD) : Vec Ideal S320x256 .f32 := V m c main_arg3
abbrev b1Arr (c : Dev nD) : Vec Ideal S256 .f32 := V m c main_arg4
abbrev w2Arr (c : Dev nD) : Vec Ideal S256x64 .f32 := V m c main_arg5
abbrev b2Arr (c : Dev nD) : Vec Ideal S64 .f32 := V m c main_arg6

abbrev rowsBlk (c : Dev nD) (t : Fin cfg0.N) : Vec Ideal S4000x128 .f32 := iblk m c 0 t
abbrev colsBlk (c : Dev nD) (t : Fin cfg0.N) : Vec Ideal S4000x128 .f32 := iblk m c 1 t
abbrev attrBlk (c : Dev nD) (t : Fin cfg0.N) : Vec Ideal S4000x64 .f32 := iblk m c 2 t
abbrev w1Blk (c : Dev nD) (t : Fin cfg0.N) : Vec Ideal S320x256 .f32 := iblk m c 3 t
abbrev b1Blk (c : Dev nD) (t : Fin cfg0.N) : Vec Ideal S256 .f32 := iblk m c 4 t
abbrev w2Blk (c : Dev nD) (t : Fin cfg0.N) : Vec Ideal S256x64 .f32 := iblk m c 5 t
abbrev b2Blk (c : Dev nD) (t : Fin cfg0.N) : Vec Ideal S64 .f32 := iblk m c 6 t

/-- The edge model of the arrays the region finds. -/
abbrev model (c : Dev nD) : Vec Ideal S500000x64 .f32 :=
  Cert.EdgeMlp.out 500000 (rowsArr m c) (colsArr m c) (attrArr m c) (w1Arr m c) (b1Arr m c) (w2Arr m c) (b2Arr m c)

/-- The printed index maps, decided over the 125 points: the three per-edge windows and the result window sit at block
    row t, every other block index is 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

theorem point_lt (t : Fin cfg0.N) : t.val < 125 := t.isLt

/-- Row r of point t's block of the gathered source rows is row 4000 t + r of the array. -/
theorem rowsBlk_apply (c : Dev nD) (t : Fin cfg0.N) (r : Fin 4000) (q : Fin 128) (hr : t.val * 4000 + r.val < 500000) :
    rowsBlk m c t (ix2 r q) = rowsArr m c (ix2 ⟨t.val * 4000 + r.val, hr⟩ q) := by
  obtain ⟨e0, e1, -⟩ := idx_facts t
  show rowsArr m c (((cfg0.win 0).blk t).view.emb (ix2 r q)) = _
  refine congrArg (rowsArr m c) (funext fun a => Fin.ext ?_)
  match a with
  | ⟨0, _⟩ => show win0_0.index t (0 : Fin 2) * 4000 + 1 * r.val = t.val * 4000 + r.val; omega
  | ⟨1, _⟩ => show win0_0.index t (1 : Fin 2) * 128 + 1 * q.val = q.val; omega

/-- Row r of point t's block of the gathered target rows is row 4000 t + r of the array. -/
theorem colsBlk_apply (c : Dev nD) (t : Fin cfg0.N) (r : Fin 4000) (q : Fin 128) (hr : t.val * 4000 + r.val < 500000) :
    colsBlk m c t (ix2 r q) = colsArr m c (ix2 ⟨t.val * 4000 + r.val, hr⟩ q) := by
  obtain ⟨-, -, e0, e1, -⟩ := idx_facts t
  show colsArr m c (((cfg0.win 1).blk t).view.emb (ix2 r q)) = _
  refine congrArg (colsArr m c) (funext fun a => Fin.ext ?_)
  match a with
  | ⟨0, _⟩ => show win0_1.index t (0 : Fin 2) * 4000 + 1 * r.val = t.val * 4000 + r.val; omega
  | ⟨1, _⟩ => show win0_1.index t (1 : Fin 2) * 128 + 1 * q.val = q.val; omega

/-- Row r of point t's block of the edge attributes is row 4000 t + r of the array. -/
theorem attrBlk_apply (c : Dev nD) (t : Fin cfg0.N) (r : Fin 4000) (q : Fin 64) (hr : t.val * 4000 + r.val < 500000) :
    attrBlk m c t (ix2 r q) = attrArr m c (ix2 ⟨t.val * 4000 + r.val, hr⟩ q) := by
  obtain ⟨-, -, -, -, e0, e1, -⟩ := idx_facts t
  show attrArr m c (((cfg0.win 2).blk t).view.emb (ix2 r q)) = _
  refine congrArg (attrArr m c) (funext fun a => Fin.ext ?_)
  match a with
  | ⟨0, _⟩ => show win0_2.index t (0 : Fin 2) * 4000 + 1 * r.val = t.val * 4000 + r.val; omega
  | ⟨1, _⟩ => show win0_2.index t (1 : Fin 2) * 64 + 1 * q.val = q.val; omega

/-- The weights and biases are staged whole at every point. -/
theorem w1Blk_eq (c : Dev nD) (t : Fin cfg0.N) : w1Blk m c t = w1Arr m c := by
  obtain ⟨-, -, -, -, -, -, e0, e1, -⟩ := idx_facts t
  funext y
  show w1Arr m c (((cfg0.win 3).blk t).view.emb y) = _
  refine congrArg (w1Arr m c) (funext fun a => Fin.ext ?_)
  match a with
  | ⟨0, _⟩ => show win0_3.index t (0 : Fin 2) * 320 + 1 * (y 0).val = (y 0).val; omega
  | ⟨1, _⟩ => show win0_3.index t (1 : Fin 2) * 256 + 1 * (y 1).val = (y 1).val; omega

theorem b1Blk_eq (c : Dev nD) (t : Fin cfg0.N) : b1Blk m c t = b1Arr m c := by
  obtain ⟨-, -, -, -, -, -, -, -, e0, -⟩ := idx_facts t
  funext y
  show b1Arr m c (((cfg0.win 4).blk t).view.emb y) = _
  refine congrArg (b1Arr m c) (funext fun a => Fin.ext ?_)
  match a with
  | ⟨0, _⟩ => show win0_4.index t (0 : Fin 1) * 256 + 1 * (y 0).val = (y 0).val; omega

theorem w2Blk_eq (c : Dev nD) (t : Fin cfg0.N) : w2Blk m c t = w2Arr m c := by
  obtain ⟨-, -, -, -, -, -, -, -, -, e0, e1, -⟩ := idx_facts t
  funext y
  show w2Arr m c (((cfg0.win 5).blk t).view.emb y) = _
  refine congrArg (w2Arr m c) (funext fun a => Fin.ext ?_)
  match a with
  | ⟨0, _⟩ => show win0_5.index t (0 : Fin 2) * 256 + 1 * (y 0).val = (y 0).val; omega
  | ⟨1, _⟩ => show win0_5.index t (1 : Fin 2) * 64 + 1 * (y 1).val = (y 1).val; omega

theorem b2Blk_eq (c : Dev nD) (t : Fin cfg0.N) : b2Blk m c t = b2Arr m c := by
  obtain ⟨-, -, -, -, -, -, -, -, -, -, -, e0, -⟩ := idx_facts t
  funext y
  show b2Arr m c (((cfg0.win 6).blk t).view.emb y) = _
  refine congrArg (b2Arr m c) (funext fun a => Fin.ext ?_)
  match a with
  | ⟨0, _⟩ => show win0_6.index t (0 : Fin 1) * 64 + 1 * (y 0).val = (y 0).val; omega

/-! ## What a point writes back, and the whole array -/

theorem hz2 : (![0, 0] : Fin 2 → Nat) = fun _ => 0 := funext fun a => by fin_cases a <;> rfl
theorem hz1 : (![0] : Fin 1 → Nat) = fun _ => 0 := funext fun a => by fin_cases a <;> rfl

/-- Row r of the result block at point t sits at row 4000 t + r of the result array. -/
theorem outEmb (t : Fin cfg0.N) (r : Fin 4000) (o : Fin 64) (hr : t.val * 4000 + r.val < 500000) :
    ((cfg0.win 7).blk t).view.emb (ix2 r o) = (ix2 ⟨t.val * 4000 + r.val, hr⟩ o : S500000x64.Idx) := by
  obtain ⟨-, -, -, -, -, -, -, -, -, -, -, -, e0, e1⟩ := idx_facts t
  refine funext fun a => Fin.ext ?_
  match a with
  | ⟨0, _⟩ => show win0_7.index t (0 : Fin 2) * 4000 + 1 * r.val = t.val * 4000 + r.val; omega
  | ⟨1, _⟩ => show win0_7.index t (1 : Fin 2) * 64 + 1 * o.val = o.val; omega

/-- WHAT POINT t WRITES BACK is block t of the edge model of the arrays as the region finds them. -/
theorem flushed_eq (c : Dev nD) (t : Fin cfg0.N) :
    (dats m 0 c).flushed 7 t = ((cfg0.win 7).blk t).view.read (Elt Ideal) (model m c) := by
  rw [Cert.KernelIdeal.Value.flushed7]
  unfold out0_7
  rw [View.canon_unit_zero hz2]
  simp only [View.ld_unit_zero (S := S4000x128) hz2, View.ld_unit_zero (S := S4000x64) hz2,
    View.ld_unit_zero (S := S320x256) hz2, View.ld_unit_zero (S := S256) hz1, View.ld_unit_zero (S := S256x64) hz2,
    View.ld_unit_zero (S := S64) hz1]
  rw [pay_eq]
  funext j
  obtain ⟨r, o, rfl⟩ : ∃ (r : Fin 4000) (o : Fin 64), j = ix2 r o := ⟨j 0, j 1, eq_ix2 j⟩
  have hr : t.val * 4000 + r.val < 500000 := by have := point_lt t; have := r.isLt; omega
  show Cert.EdgeMlp.out 4000 (rowsBlk m c t) (colsBlk m c t) (attrBlk m c t) (w1Blk m c t) (b1Blk m c t) (w2Blk m c t) (b2Blk m c t) (ix2 r o)
    = model m c (((cfg0.win 7).blk t).view.emb (ix2 r o))
  rw [outEmb t r o hr, w1Blk_eq, b1Blk_eq, w2Blk_eq, b2Blk_eq]
  exact Cert.EdgeMlp.out_row_congr 4000 500000 _ _ _ _ _ _ _ _ _ _ r ⟨t.val * 4000 + r.val, hr⟩ o
    (fun q => rowsBlk_apply m c t r q hr) (fun q => colsBlk_apply m c t r q hr) (fun q => attrBlk_apply m c t r q hr)

/-- An index of the result array is in point t's block iff each coordinate is in the block's range on its axis. -/
theorem mem_blk (t : Fin cfg0.N) (i : S500000x64.Idx) :
    i ∈ ((cfg0.win 7).blk t).view.set ↔ ∀ a : Fin 2, win0_7.index t a * S4000x64.size a ≤ (i a).val
      ∧ (i a).val < win0_7.index t a * S4000x64.size a + S4000x64.size a := by
  show i ∈ ((View.whole main_v6).slice (win0_7.rect t)).set ↔ _
  rw [View.set_slice_whole, Rect.mem_set_unit]
  exact Iff.rfl

/-- The 125 blocks tile the result array: row e lies in the block of point e / 4000. -/
theorem cover (i : S500000x64.Idx) : ∃ t : Fin cfg0.N, (cfg0.win 7).flush t = true ∧ i ∈ ((cfg0.win 7).blk t).view.set := by
  have hi0 : (i 0).val < 500000 := (i 0).isLt
  have hi1 : (i 1).val < 64 := (i 1).isLt
  have ht : (i 0).val / 4000 < 125 := by omega
  obtain ⟨-, -, -, -, -, -, -, -, -, -, -, -, e0, e1⟩ := idx_facts (⟨(i 0).val / 4000, ht⟩ : Fin cfg0.N)
  refine ⟨⟨(i 0).val / 4000, ht⟩, flush0_7 _, ?_⟩
  rw [mem_blk]
  intro a
  match a with
  | ⟨0, _⟩ =>
    show win0_7.index ⟨(i 0).val / 4000, ht⟩ (0 : Fin 2) * 4000 ≤ (i 0).val
      ∧ (i 0).val < win0_7.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_7.index ⟨(i 0).val / 4000, ht⟩ (1 : Fin 2) * 64 ≤ (i 1).val
      ∧ (i 1).val < win0_7.index ⟨(i 0).val / 4000, ht⟩ (1 : Fin 2) * 64 + 64
    rw [e1]; omega

/-- THE RESULT ARRAY after the run is the edge model of the arrays the region finds. -/
theorem final (c : Dev nD) : (dats m 0 c).arrAt 7 cfg0.N = model m c :=
  (dats m 0 c).arrAt_eq_of_cover 7 (model m c) (fun t _ => flushed_eq m c t) cover

end Cert.KernelIdeal.Blocks

end
-- ==== Proof.LibTakeFill.lean ====
/-
  `jnp.take` in its default mode ("fill") against plain indexing `x[idx]`, on the host.

  Both spellings first wrap a negative index word `v` to `v + N` (`N` the indexed axis's extent). Plain indexing then
  gathers. `jnp.take` also gathers, but it keeps the gathered value only where the wrapped word `w` passes the range
  test `0 ≤ w ∧ w ≤ N - 1` (an `and`-reduction of the test over the start-index vector's one component) and puts a fill
  value elsewhere. When every index word lies in `[-N, N)` — NumPy's own domain for the axis — every wrapped word is
  in `[0, N)`, the test passes everywhere, and the select is its first branch: the two spellings are one term.

  Stated over the library only: the wrap of one word (`wrapWord_range`), an `and`-reduction of all-ones
  (`reduce_andi_of_all`), a select under an all-ones mask (`select_of_all_one`), the range test's mask
  (`rangeMask_all_one`), and the two spellings as they print (`take_fill_eq_gather`).
-/
import Idealize.ShloMosaic.Lib.Affine
import Idealize.ShloMosaic.Lib.ReduceAll
import Idealize.ShloMosaic.Lib.ValueIdx
import Idealize.ShloMosaic.PureOps

namespace Idealize.ShloMosaic.TakeFill

open Idealize.ShloMosaic

/-- NumPy's wrap of one index word on an axis of extent `N`: `v + N` when `v` is negative, else `v`. -/
def wrapWord (N v : BitVec 32) : BitVec 32 := Scalar.select (IntOp.cmpi .slt v 0#32) (IntOp.addi v N) v

/-- A word in `[-N, N)` wraps into `[0, N)` (no 32-bit overflow for an extent below 2³⁰). -/
theorem wrapWord_range (N : Nat) (hN : N < 2 ^ 30) (v : BitVec 32) (h1 : -(N : Int) ≤ v.toInt) (h2 : v.toInt < N) :
    0 ≤ (wrapWord (BitVec.ofNat 32 N) v).toInt ∧ (wrapWord (BitVec.ofNat 32 N) v).toInt < N := by
  have hNi : (BitVec.ofNat 32 N).toInt = N := by
    rw [BitVec.toInt_ofNat']; unfold Int.bmod; dsimp only; split <;> omega
  unfold wrapWord
  by_cases hv : v.toInt < 0
  · have hc : IntOp.cmpi .slt v 0#32 = 1#1 := IntOp.cmpi_slt.2 (by simpa using hv)
    rw [hc, ValueIdx.select_one]
    have : (IntOp.addi v (BitVec.ofNat 32 N)).toInt = v.toInt + N := by
      unfold IntOp.addi; rw [BitVec.toInt_add, hNi]; unfold Int.bmod; dsimp only; split <;> omega
    omega
  · have hc : IntOp.cmpi .slt v 0#32 = 0#1 :=
      ValueIdx.eq_zero_of_ne_one fun h => hv (by simpa using IntOp.cmpi_slt.1 h)
    rw [hc, ValueIdx.select_zero]
    omega

/-- A left fold by `and` from 1 over words that are all 1 is 1. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_of_all f l _ (IntOp.andi_eq_one.2 ⟨h, hl a (List.mem_cons_self ..)⟩)
      fun n hn => hl n (List.mem_cons_of_mem _ hn)

/-- `jnp.all` along any axes of an all-ones mask, from the initial value 1, is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_of_all x _ _ (hinit _) fun n _ => hx n

/-- A select whose mask is 1 everywhere is its first branch. -/
theorem select_of_all_one {α : Type} {s : Shape} (c : IVec s 1) (a b : s.Idx → α) (hc : ∀ i, c i = 1#1) : select c a b = a := by
  funext i
  rw [ValueIdx.select_apply, hc i, ValueIdx.select_one]

/-- The range test `lo ≤ w ∧ w ≤ hi` (signed), `and`-reduced along any axes and broadcast along any axes, is 1 everywhere
    when every word of `w` passes it. -/
theorem rangeMask_all_one {s t u r : Shape} {axes : List (Fin s.rank)} (w lo hi : IVec s 32) (init : u.Idx → BitVec 1)
    (h : s.ReducesTo axes t) (hu : 0 < u.numel) (dims : Fin t.rank → Fin r.rank) (hb : t.BroadcastsInDim r dims)
    (hinit : ∀ k, init k = 1#1) (hlo : ∀ i, (lo i).toInt ≤ (w i).toInt) (hhi : ∀ i, (w i).toInt ≤ (hi i).toInt) (j : r.Idx) :
    broadcastInDim r dims hb (Host.reduce IntOp.andi (andi (cmpi .sge w lo) (cmpi .sle w hi)) init h hu) j = 1#1 := by
  unfold broadcastInDim
  exact reduce_andi_of_all _ _ h hu hinit
    (fun i => IntOp.andi_eq_one.2 ⟨IntOp.cmpi_sge.2 (hlo i), IntOp.cmpi_sle.2 (hhi i)⟩) _

/-- The start-index column both spellings gather with: the index words wrapped, laid out along `dims₁`. -/
def wrapped {s₁ s₂ : Shape} (N : Nat) (dims₀ : Fin (⟨0, ![]⟩ : Shape).rank → Fin s₁.rank)
    (b₀ b₀' : (⟨0, ![]⟩ : Shape).BroadcastsInDim s₁ dims₀) (dims₁ : Fin s₁.rank → Fin s₂.rank) (b₁ : s₁.BroadcastsInDim s₂ dims₁)
    (idx : IVec s₁ 32) : IVec s₂ 32 :=
  broadcastInDim s₂ dims₁ b₁ (select (cmpi .slt idx (broadcastInDim s₁ dims₀ b₀ (constantI ⟨0, ![]⟩ 32 0#32)))
    (addi idx (broadcastInDim s₁ dims₀ b₀' (constantI ⟨0, ![]⟩ 32 (BitVec.ofNat 32 N)))) idx)

/-- Every word of the start-index column is the wrap of an index word. -/
theorem wrapped_apply {s₁ s₂ : Shape} (N : Nat) (dims₀ : Fin (⟨0, ![]⟩ : Shape).rank → Fin s₁.rank)
    (b₀ b₀' : (⟨0, ![]⟩ : Shape).BroadcastsInDim s₁ dims₀) (dims₁ : Fin s₁.rank → Fin s₂.rank) (b₁ : s₁.BroadcastsInDim s₂ dims₁)
    (idx : IVec s₁ 32) (i : s₂.Idx) : ∃ k : s₁.Idx, wrapped N dims₀ b₀ b₀' dims₁ b₁ idx i = wrapWord (BitVec.ofNat 32 N) (idx k) :=
  ⟨_, rfl⟩

/-- `jnp.take(x, idx, axis = 0)` in fill mode as it prints: the rows gathered at the wrapped start indices where the range
    test `lo ≤ w ∧ w ≤ hi` holds of the wrapped word (reduced by `and` along `axes` from `init`, broadcast along `dims₅`),
    the fill value elsewhere. -/
def takeFill {α : Type} {sx s₁ s₂ s₃ so u : Shape} {axes : List (Fin s₂.rank)} (d : GatherDims sx s₂ so)
    (N : Nat) (dims₀ : Fin (⟨0, ![]⟩ : Shape).rank → Fin s₁.rank)
    (b₀ b₀' : (⟨0, ![]⟩ : Shape).BroadcastsInDim s₁ dims₀) (dims₁ : Fin s₁.rank → Fin s₂.rank) (b₁ : s₁.BroadcastsInDim s₂ dims₁)
    (lo hi : IVec s₂ 32) (init : u.Idx → BitVec 1) (hred : s₂.ReducesTo axes s₃) (hu : 0 < u.numel)
    (dims₅ : Fin s₃.rank → Fin so.rank) (b₅ : s₃.BroadcastsInDim so dims₅)
    (x : sx.Idx → α) (fill : so.Idx → α) (idx : IVec s₁ 32) : so.Idx → α :=
  select (broadcastInDim so dims₅ b₅ (Host.reduce IntOp.andi
      (andi (cmpi .sge (wrapped N dims₀ b₀ b₀' dims₁ b₁ idx) lo) (cmpi .sle (wrapped N dims₀ b₀ b₀' dims₁ b₁ idx) hi)) init hred hu))
    (Host.gather d x (wrapped N dims₀ b₀ b₀' dims₁ b₁ idx)) fill

/-- **`jnp.take` in fill mode is the plain gather on in-range indices.** With every index word in `[-N, N)` the range
    test `0 ≤ w ≤ N − 1` of the wrapped start indices passes everywhere, so the select between the gathered rows and the
    fill value is the gathered rows. (`lo` and `hi` are the two bounds as they are broadcast; `init` the reduction's 1.) -/
theorem take_fill_eq_gather {α : Type} {sx s₁ s₂ s₃ so u : Shape} {axes : List (Fin s₂.rank)} (d : GatherDims sx s₂ so)
    (N : Nat) (hN : N < 2 ^ 30) (dims₀ : Fin (⟨0, ![]⟩ : Shape).rank → Fin s₁.rank)
    (b₀ b₀' : (⟨0, ![]⟩ : Shape).BroadcastsInDim s₁ dims₀) (dims₁ : Fin s₁.rank → Fin s₂.rank) (b₁ : s₁.BroadcastsInDim s₂ dims₁)
    (lo hi : IVec s₂ 32) (hlo : ∀ i, (lo i).toInt = 0) (hhi : ∀ i, (hi i).toInt = (N : Int) - 1)
    (init : u.Idx → BitVec 1) (hinit : ∀ k, init k = 1#1) (hred : s₂.ReducesTo axes s₃) (hu : 0 < u.numel)
    (dims₅ : Fin s₃.rank → Fin so.rank) (b₅ : s₃.BroadcastsInDim so dims₅)
    (x : sx.Idx → α) (fill : so.Idx → α) (idx : IVec s₁ 32)
    (hr : ∀ k, -(N : Int) ≤ (idx k).toInt ∧ (idx k).toInt < N) :
    takeFill d N dims₀ b₀ b₀' dims₁ b₁ lo hi init hred hu dims₅ b₅ x fill idx
      = Host.gather d x (wrapped N dims₀ b₀ b₀' dims₁ b₁ idx) := by
  unfold takeFill
  refine select_of_all_one _ _ _ fun j => rangeMask_all_one _ lo hi init hred hu dims₅ b₅ hinit (fun i => ?_) (fun i => ?_) j
  · obtain ⟨k, hk⟩ := wrapped_apply N dims₀ b₀ b₀' dims₁ b₁ idx i
    rw [hk, hlo i]; exact (wrapWord_range N hN _ (hr k).1 (hr k).2).1
  · obtain ⟨k, hk⟩ := wrapped_apply N dims₀ b₀ b₀' dims₁ b₁ idx i
    rw [hk, hhi i]; have := (wrapWord_range N hN _ (hr k).1 (hr k).2).2; omega

end Idealize.ShloMosaic.TakeFill
-- ==== Proof.KernelEntry.lean ====
/-
  What the region finds in the two gathered node-feature arrays.

  Before the region the host takes, for each of the two endpoint rows of the [2 × E] edge-index array, the node-feature
  rows at those indices, by jnp.take in its default mode: a negative index word v is wrapped to v + 50000, the rows are
  gathered at the wrapped words, and a row whose wrapped word fails the range test 0 ≤ w ≤ 49999 is replaced by a fill
  value. When every index word lies in [-50000, 50000) the test passes everywhere and the array is the plain gather at
  the wrapped words (nodeRows), which is also what plain indexing node_feats[idx] computes.
-/
import proofs.«401332_j4329327035190_1_alg».proof.Proof.Gen.KernelIdeal.Frame
import proofs.«401332_j4329327035190_1_alg».proof.Proof.LibTakeFill
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The source endpoint of every edge: row 0 of the [2 × E] index array as a vector. -/
abbrev endpoint0 (c : Dev nD) : IVec S500000 32 :=
  shapeCast S500000 (extractStridedSlice S1x500000 ![0, 0] (m ((c : Thread nD τ).loc main_arg1)) slices_S2x500000_S1x500000_0_0)
    shapeCasts_S1x500000_S500000

/-- The target endpoint of every edge: row 1 of the index array as a vector. -/
abbrev endpoint1 (c : Dev nD) : IVec S500000 32 :=
  shapeCast S500000 (extractStridedSlice S1x500000 ![1, 0] (m ((c : Thread nD τ).loc main_arg1)) slices_S2x500000_S1x500000_1_0)
    shapeCasts_S1x500000_S500000

/-- Every word of an endpoint vector is a word of the index array. -/
theorem endpoint0_apply (c : Dev nD) (k : S500000.Idx) :
    ∃ i : S2x500000.Idx, endpoint0 m c k = (m ((c : Thread nD τ).loc main_arg1) : S2x500000.Idx → BitVec 32) i := ⟨_, rfl⟩
theorem endpoint1_apply (c : Dev nD) (k : S500000.Idx) :
    ∃ i : S2x500000.Idx, endpoint1 m c k = (m ((c : Thread nD τ).loc main_arg1) : S2x500000.Idx → BitVec 32) i := ⟨_, rfl⟩

/-- The node-feature rows at the wrapped index words: row e is row idx[e] of the table, a negative idx[e] counted from the
    end. -/
abbrev nodeRows (x : Vec Ideal S50000x128 .f32) (idx : IVec S500000 32) : Vec Ideal S500000x128 .f32 :=
  Host.gather gather_S50000x128_S500000x1_S500000x128_1_0_n_n_0_1_1128 x
    (TakeFill.wrapped 50000 ![] bcast_S_S500000 bcast_S_S500000 ![0] bcast_S500000_S500000x1_0 idx)

set_option maxHeartbeats 2000000 in
/-- The first gathered array, as the host's operations before the region compute it. -/
theorem V_rows (c : Dev nD) :
    (V m c main_v4 : S500000x128.Idx → EReal) =
      TakeFill.takeFill gather_S50000x128_S500000x1_S500000x128_1_0_n_n_0_1_1128 50000 ![] bcast_S_S500000 bcast_S_S500000 ![0]
        bcast_S500000_S500000x1_0
        (broadcastInDim S500000x1 ![] bcast_S_S500000x1 (constantI S_ 32 0#32))
        (broadcastInDim S500000x1 ![0, 1] bcast_S1x1_S500000x1_0_1 (broadcastInDim S1x1 ![1] bcast_S1_S1x1_1 (constantI S1 32 49999#32)))
        (constantI S_ 1 1#1) reducesTo_S500000x1_S500000_d1 h_S_ ![0] bcast_S500000_S500000x128_0
        (m ((c : Thread nD τ).loc main_arg0))
        (broadcastInDim S500000x128 ![] bcast_S_S500000x128 (constant (F := Ideal) S_ .f32 0x7FC00000#32))
        (endpoint0 m c) := by
  dsimp only [V]
  simp only [hostOps0, hostOps0_1, hostOps0_2, List.flatten_cons, List.flatten_nil, List.append_nil, List.cons_append, List.nil_append]
  after_results_simp
  simp only [cast_cast, cast_eq]
  rfl

set_option maxHeartbeats 2000000 in
/-- The second gathered array, likewise. -/
theorem V_cols (c : Dev nD) :
    (V m c main_v5 : S500000x128.Idx → EReal) =
      TakeFill.takeFill gather_S50000x128_S500000x1_S500000x128_1_0_n_n_0_1_1128 50000 ![] bcast_S_S500000 bcast_S_S500000 ![0]
        bcast_S500000_S500000x1_0
        (broadcastInDim S500000x1 ![] bcast_S_S500000x1 (constantI S_ 32 0#32))
        (broadcastInDim S500000x1 ![0, 1] bcast_S1x1_S500000x1_0_1 (broadcastInDim S1x1 ![1] bcast_S1_S1x1_1 (constantI S1 32 49999#32)))
        (constantI S_ 1 1#1) reducesTo_S500000x1_S500000_d1 h_S_ ![0] bcast_S500000_S500000x128_0
        (m ((c : Thread nD τ).loc main_arg0))
        (broadcastInDim S500000x128 ![] bcast_S_S500000x128 (constant (F := Ideal) S_ .f32 0x7FC00000#32))
        (endpoint1 m c) := by
  dsimp only [V]
  simp only [hostOps0, hostOps0_1, hostOps0_2, List.flatten_cons, List.flatten_nil, List.append_nil, List.cons_append, List.nil_append]
  after_results_simp
  simp only [cast_cast, cast_eq]
  rfl

/-- jnp.take's fill-mode array on index words all in [-50000, 50000) is the plain gather at the wrapped words. -/
theorem take_eq_nodeRows (x : Vec Ideal S50000x128 .f32) (idx : IVec S500000 32)
    (h : ∀ k, -50000 ≤ (idx k).toInt ∧ (idx k).toInt < 50000) :
    TakeFill.takeFill gather_S50000x128_S500000x1_S500000x128_1_0_n_n_0_1_1128 50000 ![] bcast_S_S500000 bcast_S_S500000 ![0]
        bcast_S500000_S500000x1_0
        (broadcastInDim S500000x1 ![] bcast_S_S500000x1 (constantI S_ 32 0#32))
        (broadcastInDim S500000x1 ![0, 1] bcast_S1x1_S500000x1_0_1 (broadcastInDim S1x1 ![1] bcast_S1_S1x1_1 (constantI S1 32 49999#32)))
        (constantI S_ 1 1#1) reducesTo_S500000x1_S500000_d1 h_S_ ![0] bcast_S500000_S500000x128_0 x
        (broadcastInDim S500000x128 ![] bcast_S_S500000x128 (constant (F := Ideal) S_ .f32 0x7FC00000#32)) idx
      = nodeRows x idx :=
  TakeFill.take_fill_eq_gather _ 50000 (by norm_num) _ _ _ _ _ _ _
    (fun _ => show (0#32 : BitVec 32).toInt = 0 by decide)
    (fun _ => show (49999#32 : BitVec 32).toInt = ((50000 : ℕ) : ℤ) - 1 by decide)
    _ (fun _ => rfl) _ _ _ _ _ _ _ (fun k => ⟨by have := (h k).1; omega, by have := (h k).2; omega⟩)

/-- With every edge-index word in [-50000, 50000), the region finds the node rows at the wrapped source endpoints … -/
theorem rows_of_range (c : Dev nD)
    (h : ∀ i : S2x500000.Idx, -50000 ≤ ((m ((c : Thread nD τ).loc main_arg1) : S2x500000.Idx → BitVec 32) i).toInt
      ∧ ((m ((c : Thread nD τ).loc main_arg1) : S2x500000.Idx → BitVec 32) i).toInt < 50000) :
    (V m c main_v4 : S500000x128.Idx → EReal) = nodeRows (m ((c : Thread nD τ).loc main_arg0)) (endpoint0 m c) := by
  rw [V_rows]
  exact take_eq_nodeRows _ _ fun k => by obtain ⟨i, hi⟩ := endpoint0_apply m c k; rw [hi]; exact h i

/-- … and the node rows at the wrapped target endpoints. -/
theorem cols_of_range (c : Dev nD)
    (h : ∀ i : S2x500000.Idx, -50000 ≤ ((m ((c : Thread nD τ).loc main_arg1) : S2x500000.Idx → BitVec 32) i).toInt
      ∧ ((m ((c : Thread nD τ).loc main_arg1) : S2x500000.Idx → BitVec 32) i).toInt < 50000) :
    (V m c main_v5 : S500000x128.Idx → EReal) = nodeRows (m ((c : Thread nD τ).loc main_arg0)) (endpoint1 m c) := by
  rw [V_cols]
  exact take_eq_nodeRows _ _ fun k => by obtain ⟨i, hi⟩ := endpoint1_apply m c k; rw [hi]; exact h i

end Cert.KernelIdeal.Entry

end
-- ==== Proof.PreRange.lean ====
/-
  What the precondition says of the edge-index array: every word, read as a signed integer, lies in [-50000, 50000) —
  NumPy's own domain for an index into an axis of 50000 nodes (a negative index counts from the end).

  The printed predicate is a conjunction of jnp.all's; its last two conjuncts are "every word ≥ -50000" and "every word
  < 50000", each a reduction by and, over both axes, of the word-by-word comparison with the broadcast bound. A reduction by
  and that is 1 had a 1 everywhere, and a signed comparison word that is 1 says the integer inequality.
-/
import proofs.«401332_j4329327035190_1_alg».proof.Pre_finite_inputs
import Idealize.ShloMosaic.Lib.Affine
import Idealize.ShloMosaic.Lib.ReduceAll
import Idealize.ShloMosaic.Lib.ValueIdx

namespace Cert.Pre_finite_inputs.Range

open Idealize.ShloMosaic Cert.Pre_finite_inputs

variable [Facts]
open Facts

instance : Subsingleton S_.Idx := ⟨fun a b => funext fun d => d.elim0⟩

/-- Under the precondition every edge-index word is in [-50000, 50000). -/
theorem index_range {F : FTy → Type} [FloatOps F] (a0 : FVec F S50000x128 .f32) (a1 : IVec S2x500000 32)
    (a2 : FVec F S500000x64 .f32) (a3 : FVec F S320x256 .f32) (a4 : FVec F S256 .f32) (a5 : FVec F S256x64 .f32)
    (a6 : FVec F S64 .f32) (h : fn (F := F) a0 a1 a2 a3 a4 a5 a6 = fun _ => 1#1) (i : S2x500000.Idx) :
    -50000 ≤ (a1 i).toInt ∧ (a1 i).toInt < 50000 := by
  have h0 := congrFun h ValueIdx.ix0
  dsimp only [fn, fn_part1, fn_part2] at h0
  obtain ⟨h1, hlt⟩ := IntOp.andi_eq_one.1 h0
  obtain ⟨_, hge⟩ := IntOp.andi_eq_one.1 h1
  have hge' := Host.reduce_andi_all _ _ _ _ _ hge i
  have hlt' := Host.reduce_andi_all _ _ _ _ _ hlt i
  have e1 : (4294917296#32 : BitVec 32).toInt = -50000 := by decide
  have e2 : (50000#32 : BitVec 32).toInt = 50000 := by decide
  have hge'' : (4294917296#32 : BitVec 32).toInt ≤ (a1 i).toInt := IntOp.cmpi_sge.1 hge'
  have hlt'' : (a1 i).toInt < (50000#32 : BitVec 32).toInt := IntOp.cmpi_slt.1 hlt'
  rw [e1] at hge''
  rw [e2] at hlt''
  exact ⟨hge'', hlt''⟩

end Cert.Pre_finite_inputs.Range
-- ==== Proof.KernelRun.lean ====
/-
  The kernel's run, read: under the precondition the result array ends at the edge model of the node rows gathered at the
  wrapped endpoints, the edge attributes and the weights, all as launched.

  The generated frame run names the result array after the run; the blocks written back tile it with the edge model of the
  arrays the region finds (Blocks.final); of those the weights, biases and edge attributes are arguments no host operation
  writes, and the two gathered arrays are, with every index word in [-50000, 50000) (the precondition), the node rows at
  the wrapped endpoints (Entry.rows_of_range, Entry.cols_of_range).
-/
import proofs.«401332_j4329327035190_1_alg».proof.Defs
import proofs.«401332_j4329327035190_1_alg».proof.Proof.Gen.Pre_finite_inputs
import proofs.«401332_j4329327035190_1_alg».proof.Proof.KernelBlocks
import proofs.«401332_j4329327035190_1_alg».proof.Proof.KernelEntry
import proofs.«401332_j4329327035190_1_alg».proof.Proof.PreRange

noncomputable section

namespace Cert.KernelIdeal.Run

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The precondition bounds every edge-index word on every device. -/
theorem index_range (hpre : Cert.Pre_KernelIdeal m) (c : Dev nD) (i : S2x500000.Idx) :
    -50000 ≤ ((m ((c : Thread nD τ).loc main_arg1) : S2x500000.Idx → BitVec 32) i).toInt
      ∧ ((m ((c : Thread nD τ).loc main_arg1) : S2x500000.Idx → BitVec 32) i).toInt < 50000 :=
  Cert.Pre_finite_inputs.Range.index_range (F := Ideal) _ _ _ _ _ _ _ (hpre c) i

/-- The edge model of the arguments as launched. -/
abbrev result (c : Dev nD) : FVec Ideal S500000x64 .f32 :=
  Cert.EdgeMlp.out 500000 (Entry.nodeRows (m ((c : Thread nD τ).loc main_arg0)) (Entry.endpoint0 m c))
    (Entry.nodeRows (m ((c : Thread nD τ).loc main_arg0)) (Entry.endpoint1 m c))
    (m ((c : Thread nD τ).loc main_arg2)) (m ((c : Thread nD τ).loc main_arg3)) (m ((c : Thread nD τ).loc main_arg4))
    (m ((c : Thread nD τ).loc main_arg5)) (m ((c : Thread nD τ).loc main_arg6))

/-- The edge model of the arrays the region finds is the edge model of the arguments as launched. -/
theorem model_eq (hpre : Cert.Pre_KernelIdeal m) (c : Dev nD) : Blocks.model m c = result m c := by
  show Cert.EdgeMlp.out 500000 (V m c main_v4 : S500000x128.Idx → EReal) (V m c main_v5 : S500000x128.Idx → EReal)
      (V m c main_arg2) (V m c main_arg3) (V m c main_arg4) (V m c main_arg5) (V m c main_arg6) = _
  rw [Entry.rows_of_range m c (index_range m hpre c), Entry.cols_of_range m c (index_range m hpre c),
    V_main_arg2, V_main_arg3, V_main_arg4, V_main_arg5, V_main_arg6]

/-- The kernel's run under the precondition: the result array at the edge model of the arguments, the arguments unchanged. -/
theorem run (hpre : Cert.Pre_KernelIdeal m) :
    θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((Blocks.final m c).trans (model_eq m hpre c)), (h c).2⟩)
    (Cert.KernelIdeal.Value.run_blocks m ρ)

end Cert.KernelIdeal.Run

end
-- ==== Proof.RefValue.lean ====
/-
  The reference's result as the edge model.

  The reference indexes the node-feature table by the two endpoint rows of the edge-index array (plain indexing: a
  negative index word wrapped to v + 50000, then a gather), joins the two gathered arrays and the edge attributes along
  the columns, and applies the two-layer perceptron on the host. Its composed term is, operation for operation, the host
  spelling of the edge model (EdgeMlp.host_eq) over the gathered node rows.
-/
import proofs.«401332_j4329327035190_1_alg».proof.Proof.Gen.ReferenceIdeal.Run
import proofs.«401332_j4329327035190_1_alg».proof.Proof.EdgeMlp
import proofs.«401332_j4329327035190_1_alg».proof.Proof.LibTakeFill

noncomputable section

namespace Cert.ReferenceIdeal.RefValue

open Cert.ReferenceIdeal Cert.ReferenceIdeal.Gen Idealize.ShloMosaic Idealize.ShloMosaic.TcCoe Idealize.SL.Sem

/-- The source endpoint of every edge: row 0 of the [2 × E] index array as a vector. -/
abbrev endpoint0 (a1 : IVec S2x500000 32) : IVec S500000 32 :=
  shapeCast S500000 (extractStridedSlice S1x500000 ![0, 0] a1 slices_S2x500000_S1x500000_0_0) shapeCasts_S1x500000_S500000

/-- The target endpoint of every edge: row 1 of the index array as a vector. -/
abbrev endpoint1 (a1 : IVec S2x500000 32) : IVec S500000 32 :=
  shapeCast S500000 (extractStridedSlice S1x500000 ![1, 0] a1 slices_S2x500000_S1x500000_1_0) shapeCasts_S1x500000_S500000

/-- The node-feature rows at the wrapped index words. -/
abbrev nodeRows (x : FVec Ideal S50000x128 .f32) (idx : IVec S500000 32) : FVec Ideal S500000x128 .f32 :=
  Host.gather gather_S50000x128_S500000x1_S500000x128_1_0_n_n_0_1_1128 x
    (TakeFill.wrapped 50000 ![] bcast_S_S500000 bcast_S_S500000 ![0] bcast_S500000_S500000x1_0 idx)

/-- The reference run's result term is the edge model of the gathered node rows, the edge attributes and the weights. -/
theorem result_eq (a0 : FVec Ideal S50000x128 .f32) (a1 : IVec S2x500000 32) (a2 : FVec Ideal S500000x64 .f32)
    (a3 : FVec Ideal S320x256 .f32) (a4 : FVec Ideal S256 .f32) (a5 : FVec Ideal S256x64 .f32) (a6 : FVec Ideal S64 .f32) :
    addf (Host.dotGeneral dot_S500000x256_S256x64_S500000x64_1_0_0_1_n_n none
        (maximumf
          (addf (Host.dotGeneral dot_S500000x320_S320x256_S500000x256_1_0_0_1_n_n none
              (concatenate S500000x320 1 [⟨S500000x128, nodeRows a0 (endpoint0 a1)⟩, ⟨S500000x128, nodeRows a0 (endpoint1 a1)⟩,
                ⟨S500000x64, a2⟩] concatenates_S500000x128_S500000x128_S500000x64_S500000x320_d1) a3)
            (broadcastInDim S500000x256 ![0, 1] bcast_S1x256_S500000x256_0_1 (broadcastInDim S1x256 ![1] bcast_S256_S1x256_1 a4)))
          (broadcastInDim S500000x256 ![] bcast_S_S500000x256 (constant (F := Ideal) S_ .f32 0x00000000#32)))
        a5)
      (broadcastInDim S500000x64 ![0, 1] bcast_S1x64_S500000x64_0_1 (broadcastInDim S1x64 ![1] bcast_S64_S1x64_1 a6))
      = Cert.EdgeMlp.out 500000 (nodeRows a0 (endpoint0 a1)) (nodeRows a0 (endpoint1 a1)) a2 a3 a4 a5 a6 :=
  Cert.EdgeMlp.host_eq 500000 _ _ _ _ _ _ _ _ _ _ _ _ _

end Cert.ReferenceIdeal.RefValue

end
-- ==== Proof.lean ====
/-
  The certificate of an edge model of a message-passing layer: for each of 500000 edges the feature rows of its two endpoint
  nodes (rows of a 50000 × 128 table, indexed by the two rows of an integer [2 × 500000] array) and its own 64 attributes
  are joined into a row of 320 features, and a two-layer perceptron (320 → 256, rectified, → 64) is applied.

  The kernel gathers the node rows on the host with jnp.take and runs the join and the perceptron in one TensorCore region
  over 125 blocks of 4000 edges; the reference gathers by plain indexing and runs everything on the host. The two gathers
  differ only outside NumPy's index domain [-50000, 50000) (jnp.take fills such rows, plain indexing clamps), which the
  precondition excludes; inside it both are the gather at the wrapped index. From there the two programs compute, entry
  by entry, the same sums in the same order (EdgeMlp.out): the kernel's narrowings to bf16 are the identity on extended reals
  and its matrix products into zero accumulators are the host's dot_generals. No finiteness is used.

  frame_Kernel / frame_KernelIdeal: the generated frame. frame_ReferenceIdeal: the generated run of the host program.
  preserves: the ideal pass rewrote nothing. algebraic: KernelRun (the result array after the kernel's run) against
  RefValue (the reference run's term), both the edge model of the same gathered rows.
-/
import proofs.«401332_j4329327035190_1_alg».proof.Defs
import proofs.«401332_j4329327035190_1_alg».proof.Proof.Gen.Kernel
import proofs.«401332_j4329327035190_1_alg».proof.Proof.Gen.Kernel.Skeleton
import proofs.«401332_j4329327035190_1_alg».proof.Proof.Gen.Kernel.Launch
import proofs.«401332_j4329327035190_1_alg».proof.Proof.Gen.Kernel.Points
import proofs.«401332_j4329327035190_1_alg».proof.Proof.Gen.Kernel.Frame
import proofs.«401332_j4329327035190_1_alg».proof.Proof.Gen.KernelIdeal
import proofs.«401332_j4329327035190_1_alg».proof.Proof.Gen.KernelIdeal.Skeleton
import proofs.«401332_j4329327035190_1_alg».proof.Proof.Gen.KernelIdeal.Launch
import proofs.«401332_j4329327035190_1_alg».proof.Proof.Gen.KernelIdeal.Points
import proofs.«401332_j4329327035190_1_alg».proof.Proof.Gen.KernelIdeal.Frame
import proofs.«401332_j4329327035190_1_alg».proof.Proof.Gen.ReferenceIdeal
import proofs.«401332_j4329327035190_1_alg».proof.Proof.Gen.Pre_finite_inputs
import proofs.«401332_j4329327035190_1_alg».proof.Proof.Gen.KernelIdeal.Value
import proofs.«401332_j4329327035190_1_alg».proof.Proof.Gen.ReferenceIdeal.Run
import proofs.«401332_j4329327035190_1_alg».proof.Proof.KernelRun
import proofs.«401332_j4329327035190_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the edge model of the node rows gathered at the wrapped endpoints: the kernel's by
    KernelRun (where the precondition makes jnp.take's gather the plain one), the reference's by RefValue. -/
theorem algebraic : Cert.algebraic_KernelIdeal_ReferenceIdeal := by
  intro m ρ m' ρ' hpre hagree
  refine ⟨_, Cert.KernelIdeal.Run.run m ρ hpre, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [e0, e1, e2, e3, e4, e5, e6]
  exact Cert.ReferenceIdeal.RefValue.result_eq _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
